-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part2 {F : FTy → Type} [FloatOps F] (main_arg9 : FVec F S128 .f32) (main_arg10 : FVec F S128 .f32) (main_arg11 : FVec F S_ .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S_ .f32 := Host.absf main_arg11
  let main_cst_16 : FVec F S_ .f32 := constant S_ .f32 0x7F800000#32
  let main_v45 : IVec S_ 1 := cmpf .olt main_v44 main_cst_16
  let main_c_17 : IVec S_ 1 := constantI S_ 1 1#1
  let main_v46 : IVec S_ 1 := (fun x v => Host.reduce IntOp.andi x v reducesTo_S_S_d h_S_) main_v45 main_c_17
  let main_v47 : IVec S_ 1 := andi main_v43 main_v46
  main_v47

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S_ .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x1 : Shape := ⟨2, ![1, 1]⟩
abbrev S1x128 : Shape := ⟨2, ![1, 128]⟩
abbrev S5000x128 : Shape := ⟨2, ![5000, 128]⟩

abbrev nBuf : Space → Nat
  | .hbm => 57
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S_, .f32⟩
  | .hbm, ⟨27, _⟩ => ⟨S1x1, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S1x128, .f32⟩
  | .hbm, ⟨40, _⟩ => ⟨S_, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S100000x128, .f32⟩
  | .hbm, ⟨46, _⟩ => ⟨S1x128, .f32⟩
  | .hbm, ⟨47, _⟩ => ⟨S1x128, .f32⟩
  | .hbm, ⟨48, _⟩ => ⟨S_, .f32⟩
  | .hbm, ⟨49, _⟩ => ⟨S1x128, .f32⟩
  | .hbm, ⟨50, _⟩ => ⟨S1x128, .f32⟩
  | .hbm, ⟨51, _⟩ => ⟨S_, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27_0 : Ref sig .tc := ⟨.hbm, 46, rfl⟩
abbrev main_v27_1 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg7_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem7_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S_S1x1 : S_.ShapeCasts S1x1
  bcast_S1x1_S1x128_0_1 : S1x1.BroadcastsInDim S1x128 (![0, 1] : Fin 2 → Fin S1x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S1x128_S1x128 : S1x128.ShapeCasts S1x128
  broadcasts_S1x128_S5000x128 : S1x128.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  reduces_S5000x128_S128 : S5000x128.Reduces [0] S128
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S100000x128.size a
  hwx1_9 : ∀ i : grid1.Coords, EltTy.bits .f32 = 32 ∨ (Rect.block (s := S100000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S100000x128.size a
  hwx3_7 : ∀ i : grid3.Coords, EltTy.bits .f32 = 32 ∨ (Rect.block (s := S100000x128) S5000x128.size (cc3_transform_7 i) (hinb3_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19_0) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19_1) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v9) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v25) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v26) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v26) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27_0) S1x128.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27_1) S1x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v26) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v18) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v29) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v33) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v34) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S128, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S128, .f32⟩
  | .hbm, ⟨82, _⟩ => ⟨S_, .f32⟩
  | .hbm, ⟨83, _⟩ => ⟨S128, .f32⟩
  | .hbm, ⟨84, _⟩ => ⟨S128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S1x128, .f32⟩
  | .hbm, ⟨99, _⟩ => ⟨S100000x128, .f32⟩
  | .hbm, ⟨100, _⟩ => ⟨S100000x128, .f32⟩
  | .hbm, ⟨101, _⟩ => ⟨S_, .f32⟩
  | .hbm, ⟨102, _⟩ => ⟨S100000x128, .f32⟩
  | .hbm, ⟨103, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call0_cst : Ref sig .tc := ⟨.hbm, 64, rfl⟩
abbrev main_call0_v0 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_call1_cst : Ref sig .tc := ⟨.hbm, 101, rfl⟩
abbrev main_call1_v0 : Ref sig .tc := ⟨.hbm, 102, rfl⟩
abbrev main_v73 : Ref sig .tc := ⟨.hbm, 103, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics of the two programs, with no program in sight.

  A layer takes a matrix X (100000 rows, 128 columns), weights W (128 by 128), a bias b, a scale g and a shift be
  (128 entries each) and returns  relu (((y - mu) * rsqrt (v + eps)) * g + be)  where  y = X W + b  row by row,
  mu is the column mean of y over the 100000 rows, and v is the column variance of y. The two programs differ in
  how they spell v: one as the mean of the squared deviations (y - mu)^2, the other as the mean of the squares
  minus mu^2. Over the extended reals the two agree when every entry of y is a real number (then mu is one too,
  and the identity is the one of the reals: sum (y - mu)^2 = sum y^2 - 2 mu sum y + n mu^2 with sum y = n mu);
  at an infinite entry they need not. So the lemmas below carry finiteness: a layer of real inputs has real
  outputs (the variance is a nonnegative real, eps is a positive real, so the reciprocal square root is a positive
  real), and its two spellings agree.

  Also here: a sum over the 100000 rows regrouped as 20 consecutive blocks of 5000 rows.
-/
import Idealize.ShloMosaic.PureOps.Ideal
import Mathlib.Algebra.BigOperators.Fin
import Mathlib.Algebra.BigOperators.Ring.Finset
import Mathlib.Data.EReal.Operations
import Mathlib.Tactic.Ring
import Mathlib.Tactic.Linarith

noncomputable section

namespace Cert.Bn

open Idealize.ShloMosaic

/-- An extended real that is a real number. -/
def IsFin (x : EReal) : Prop := ∃ r : ℝ, x = (r : EReal)

/-- The four float literals the programs share, as the extended reals they denote. -/
def cZ : EReal := Ideal.ofBits .f32 0x00000000#32
def cN : EReal := Ideal.ofBits .f32 0x47C35000#32
def cE : EReal := Ideal.ofBits .f32 0x3727C5AC#32
def cOne : EReal := Ideal.ofBits .f32 0x3F800000#32

/-- y = X W + b at row p, column q. -/
def lin (X : Fin 100000 → Fin 128 → EReal) (W : Fin 128 → Fin 128 → EReal) (b : Fin 128 → EReal)
    (p : Fin 100000) (q : Fin 128) : EReal :=
  (∑ k : Fin 128, X p k * W k q) + b q

/-- The column sum of y, from the zero literal. -/
def s1 (Y : Fin 100000 → Fin 128 → EReal) (q : Fin 128) : EReal := cZ + ∑ p : Fin 100000, Y p q
/-- The column sum of y squared, from the zero literal. -/
def s2 (Y : Fin 100000 → Fin 128 → EReal) (q : Fin 128) : EReal := cZ + ∑ p : Fin 100000, Y p q * Y p q
/-- The column mean. -/
def mean (Y : Fin 100000 → Fin 128 → EReal) (q : Fin 128) : EReal := Ideal.div (s1 Y q) cN
/-- The variance as mean of squares minus squared mean. -/
def varK (Y : Fin 100000 → Fin 128 → EReal) (q : Fin 128) : EReal :=
  Ideal.div (s2 Y q) cN - mean Y q * mean Y q
/-- The variance as mean of squared deviations. -/
def varR (Y : Fin 100000 → Fin 128 → EReal) (q : Fin 128) : EReal :=
  Ideal.div (cZ + ∑ p : Fin 100000, (Y p q - mean Y q) * (Y p q - mean Y q)) cN
/-- Normalise, scale, shift, clamp at zero: one entry. -/
def bn (y mu v g be : EReal) : EReal := max ((y - mu) * Ideal.rsqrt (v + cE) * g + be) cZ

/-- A layer, its variance spelt as mean of squares minus squared mean. -/
def layerK (X : Fin 100000 → Fin 128 → EReal) (W : Fin 128 → Fin 128 → EReal) (b g be : Fin 128 → EReal)
    (p : Fin 100000) (q : Fin 128) : EReal :=
  bn (lin X W b p q) (mean (lin X W b) q) (varK (lin X W b) q) (g q) (be q)
/-- A layer, its variance spelt as mean of squared deviations. -/
def layerR (X : Fin 100000 → Fin 128 → EReal) (W : Fin 128 → Fin 128 → EReal) (b g be : Fin 128 → EReal)
    (p : Fin 100000) (q : Fin 128) : EReal :=
  bn (lin X W b p q) (mean (lin X W b) q) (varR (lin X W b) q) (g q) (be q)

/-- The rows of block n (rows 5000 n … 5000 n + 4999) of one column, summed; zero past the last block. -/
def blockSum (f : Fin 100000 → EReal) (n : ℕ) : EReal :=
  ∑ r : Fin 5000, if h : 5000 * n + r.val < 100000 then f ⟨5000 * n + r.val, h⟩ else 0

theorem cZ_eq : cZ = 0 := by
  simp [cZ, Ideal.ofBits, Ideal.ieee]

theorem cN_eq : cN = ((100000 : ℝ) : EReal) := by
  simp [cN, Ideal.ofBits, Ideal.ieee, -EReal.coe_mul]; norm_num

/-- The small literal is 10995116 · 2⁻⁴⁰. -/
theorem cE_eq : cE = ((10995116 * (2 : ℝ) ^ (-40 : ℤ) : ℝ) : EReal) := by
  simp [cE, Ideal.ofBits, Ideal.ieee, -EReal.coe_mul]

theorem cE_pos : ∃ e : ℝ, 0 < e ∧ cE = (e : EReal) :=
  ⟨_, by positivity, cE_eq⟩

theorem cOne_fin : IsFin cOne := by
  unfold IsFin
  simp [cOne, Ideal.ofBits, Ideal.ieee, -EReal.coe_mul]

theorem isFin_add {x y : EReal} (hx : IsFin x) (hy : IsFin y) : IsFin (x + y) := by
  obtain ⟨a, rfl⟩ := hx
  obtain ⟨b, rfl⟩ := hy
  exact ⟨a + b, (EReal.coe_add a b).symm⟩

theorem isFin_mul {x y : EReal} (hx : IsFin x) (hy : IsFin y) : IsFin (x * y) := by
  obtain ⟨a, rfl⟩ := hx
  obtain ⟨b, rfl⟩ := hy
  exact ⟨a * b, (EReal.coe_mul a b).symm⟩

theorem isFin_sub {x y : EReal} (hx : IsFin x) (hy : IsFin y) : IsFin (x - y) := by
  obtain ⟨a, rfl⟩ := hx
  obtain ⟨b, rfl⟩ := hy
  exact ⟨a - b, (EReal.coe_sub a b).symm⟩

theorem isFin_max {x y : EReal} (hx : IsFin x) (hy : IsFin y) : IsFin (max x y) := by
  rcases le_total x y with h | h
  · rw [max_eq_right h]; exact hy
  · rw [max_eq_left h]; exact hx

theorem isFin_sum {ι : Type*} (s : Finset ι) (f : ι → EReal) (h : ∀ i ∈ s, IsFin (f i)) : IsFin (∑ i ∈ s, f i) := by
  classical
  induction s using Finset.induction_on with
  | empty => exact ⟨0, by simp⟩
  | insert a s ha ih =>
    rw [Finset.sum_insert ha]
    exact isFin_add (h a (Finset.mem_insert_self a s)) (ih (fun i hi => h i (Finset.mem_insert_of_mem hi)))

/-- The coercion of the reals into the extended reals goes through finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The 100000 rows are 20 blocks of 5000. -/
theorem sum_blocks (f : Fin 100000 → EReal) : ∑ s ∈ Finset.range 20, blockSum f s = ∑ p : Fin 100000, f p := by
  rw [Finset.sum_range (fun s => blockSum f s)]
  let e : Fin 20 × Fin 5000 ≃ Fin 100000 := finProdFinEquiv.trans (finCongr (by norm_num))
  rw [← Equiv.sum_comp e f, Fintype.sum_prod_type]
  refine Finset.sum_congr rfl (fun i _ => ?_)
  unfold blockSum
  refine Finset.sum_congr rfl (fun r _ => ?_)
  have h : 5000 * i.val + r.val < 100000 := by
    have := i.isLt
    have := r.isLt
    omega
  rw [dif_pos h]
  congr 1
  apply Fin.ext
  simp [e, finProdFinEquiv]
  omega

/-- A linear layer of real inputs has real outputs. -/
theorem lin_fin {X : Fin 100000 → Fin 128 → EReal} {W : Fin 128 → Fin 128 → EReal} {b : Fin 128 → EReal}
    (hX : ∀ p k, IsFin (X p k)) (hW : ∀ k q, IsFin (W k q)) (hb : ∀ q, IsFin (b q)) (p : Fin 100000) (q : Fin 128) :
    IsFin (lin X W b p q) :=
  isFin_add (isFin_sum _ _ (fun k _ => isFin_mul (hX p k) (hW k q))) (hb q)

/-- Dividing by the row count is multiplying by its reciprocal, a real. -/
theorem div_cN (x : EReal) : Ideal.div x cN = x * ((1 / 100000 : ℝ) : EReal) := by
  rw [cN_eq, Ideal.div_coe (by norm_num)]

/-- The real identity behind the two spellings: sum (y - m)^2 = sum y^2 - 2 m sum y + n m^2. -/
theorem sum_sq_dev (y : Fin 100000 → ℝ) (m : ℝ) :
    ∑ p, (y p - m) * (y p - m) = ∑ p, y p * y p - 2 * m * ∑ p, y p + 100000 * (m * m) := by
  have h : ∀ p, (y p - m) * (y p - m) = y p * y p - 2 * m * y p + m * m := fun p => by ring
  simp only [h]
  rw [Finset.sum_add_distrib, Finset.sum_sub_distrib, ← Finset.mul_sum, Finset.sum_const, Finset.card_univ,
    Fintype.card_fin, nsmul_eq_mul]
  norm_num

/-- On real entries the two spellings of the variance agree. -/
theorem varK_eq_varR {Y : Fin 100000 → Fin 128 → EReal} (hY : ∀ p q, IsFin (Y p q)) (q : Fin 128) :
    varK Y q = varR Y q := by
  choose y hy using hY
  unfold varK varR mean s1 s2
  simp only [div_cN, cZ_eq, zero_add, hy]
  simp only [← coe_sum, ← EReal.coe_mul, ← EReal.coe_sub]
  congr 1
  rw [sum_sq_dev (fun p => y p q)]
  ring

/-- So a layer of real inputs is the same function under both spellings, -/
theorem layerK_eq_layerR {X : Fin 100000 → Fin 128 → EReal} {W : Fin 128 → Fin 128 → EReal} {b : Fin 128 → EReal}
    (g be : Fin 128 → EReal)
    (hX : ∀ p k, IsFin (X p k)) (hW : ∀ k q, IsFin (W k q)) (hb : ∀ q, IsFin (b q)) :
    layerK X W b g be = layerR X W b g be := by
  funext p q
  unfold layerK layerR
  rw [varK_eq_varR (lin_fin hX hW hb) q]

/-- The column mean of real entries is real. -/
theorem mean_fin {Y : Fin 100000 → Fin 128 → EReal} (hY : ∀ p q, IsFin (Y p q)) (q : Fin 128) :
    IsFin (mean Y q) := by
  unfold mean s1
  rw [div_cN, cZ_eq, zero_add]
  exact isFin_mul (isFin_sum _ _ (fun p _ => hY p q)) ⟨_, rfl⟩

/-- The mean of squared deviations of real entries is a nonnegative real. -/
theorem varR_nonneg {Y : Fin 100000 → Fin 128 → EReal} (hY : ∀ p q, IsFin (Y p q)) (q : Fin 128) :
    ∃ v : ℝ, 0 ≤ v ∧ varR Y q = (v : EReal) := by
  obtain ⟨m, hm⟩ := mean_fin hY q
  choose y hy using hY
  unfold varR
  rw [hm]
  simp only [div_cN, cZ_eq, zero_add, hy]
  simp only [← coe_sum, ← EReal.coe_mul, ← EReal.coe_sub]
  exact ⟨_, mul_nonneg (Finset.sum_nonneg (fun p _ => mul_self_nonneg _)) (by norm_num), rfl⟩

/-- The reciprocal square root of a positive real is a real. -/
theorem rsqrt_fin {v e : ℝ} (hv : 0 ≤ v) (he : 0 < e) : IsFin (Ideal.rsqrt ((v : EReal) + (e : EReal))) := by
  have h : 0 < v + e := by linarith
  rw [← EReal.coe_add, Ideal.rsqrt_coe, if_neg (not_lt.mpr h.le), if_neg h.ne']
  exact ⟨_, rfl⟩

/-- and its outputs are real. -/
theorem layerR_fin {X : Fin 100000 → Fin 128 → EReal} {W : Fin 128 → Fin 128 → EReal} {b g be : Fin 128 → EReal}
    (hX : ∀ p k, IsFin (X p k)) (hW : ∀ k q, IsFin (W k q)) (hb : ∀ q, IsFin (b q))
    (hg : ∀ q, IsFin (g q)) (hbe : ∀ q, IsFin (be q)) (p : Fin 100000) (q : Fin 128) :
    IsFin (layerR X W b g be p q) := by
  have hY := lin_fin hX hW hb
  obtain ⟨v, hv, hvar⟩ := varR_nonneg hY q
  obtain ⟨e, he, hE⟩ := cE_pos
  unfold layerR bn
  rw [hvar, hE, cZ_eq]
  exact isFin_max
    (isFin_add (isFin_mul (isFin_mul (isFin_sub (hY p q) (mean_fin hY q)) (rsqrt_fin hv he)) (hg q)) (hbe q))
    ⟨0, rfl⟩

end Cert.Bn

end
-- ==== Proof.Shapes.lean ====
/-
  Reading an array of extended reals by plain coordinates: a two-axis array by row and column, a one-row array
  by column, a one-axis array by position. The programs' arrays are indexed by functions from axes to bounded
  naturals; the mathematics is written over rows and columns.
-/
import Idealize.ShloMosaic.PureOps.Ideal
import Idealize.ShloMosaic.Lib.ValueIdx

noncomputable section

namespace Cert.Bn

open Idealize.ShloMosaic Idealize.ShloMosaic.ValueIdx

/-- A two-axis array read at row p, column q. -/
def mat {n0 n1 : Nat} (A : (⟨2, ![n0, n1]⟩ : Shape).Idx → EReal) (p : Fin n0) (q : Fin n1) : EReal := A (ix2 p q)

/-- A one-row array read at column q. -/
def row {n : Nat} (A : (⟨2, ![1, n]⟩ : Shape).Idx → EReal) (q : Fin n) : EReal := A (ix2 0 q)

/-- A one-axis array read at position q. -/
def vec {n : Nat} (A : (⟨1, ![n]⟩ : Shape).Idx → EReal) (q : Fin n) : EReal := A (ix1 q)

/-- A rank-zero array's one entry. -/
def scal (A : (⟨0, ![]⟩ : Shape).Idx → EReal) : EReal := A ix0

/-- Two two-axis arrays that agree at every row and column are equal. -/
theorem ext_mat {n0 n1 : Nat} {A B : (⟨2, ![n0, n1]⟩ : Shape).Idx → EReal} (h : ∀ p q, mat A p q = mat B p q) : A = B :=
  funext fun j => by rw [eq_ix2 j]; exact h (j 0) (j 1)

/-- The matrix the first layer multiplies: the pooled neighbour features plus, column by column, a scale (in both programs the same one + eps in every column) times the node's own. -/
def xin (P h : (⟨2, ![100000, 128]⟩ : Shape).Idx → EReal) (sc : Fin 128 → EReal) : Fin 100000 → Fin 128 → EReal :=
  fun p k => mat P p k + sc k * mat h p k

end Cert.Bn

end
-- ==== Proof.Pooled.lean ====
import proofs.«151981_j22643067584730_1_alg».proof.ReferenceIdeal
import proofs.«151981_j22643067584730_1_alg».proof.Proof.Gen.ReferenceIdeal
import proofs.«151981_j22643067584730_1_alg».proof.Proof.Spec

noncomputable section

namespace Cert.Pooled

open Idealize.ShloMosaic Cert.Bn Cert.ReferenceIdeal Cert.ReferenceIdeal.Facts₀ Cert.ReferenceIdeal.Facts

/-- The pooled neighbour features: every edge's source row of h gathered (a negative source index wrapped by the
    number of rows first), then added into its destination row, from zero. Both programs compute it with these same
    host operations; it is named once and opened only to see that it is finite where h is. -/
def pooled (h : (⟨S100000x128, .f32⟩ : BufTy).Contents (Elt Ideal))
    (src dst : (⟨S1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- One entry of the exact accumulating scatter is its starting entry plus the sum of the update entries landing
    there: real when the starting entry and every update entry are. -/
theorem hostScatterAdd_fin {s si su : Shape} (d : ScatterDims s si su) {w : Nat} (x : s.Idx → EReal) (idx : IVec si w)
    (upd : su.Idx → EReal) (i : s.Idx) (hx : IsFin (x i)) (hu : ∀ j, IsFin (upd j)) :
    IsFin (Ideal.hostScatterAdd d x idx upd i) := by
  unfold Ideal.hostScatterAdd
  exact isFin_add hx (isFin_sum _ _ (fun j _ => hu j))

/-- The same for the host's accumulating scatter, which over the extended reals is the exact one, for any shapes
    and any scatter dimension numbers. -/
theorem scatterAdd_fin {s si su : Shape} {φ : FTy} {w : Nat} (d : ScatterDims s si su) (x : FVec Ideal s φ)
    (idx : IVec si w) (upd : FVec Ideal su φ) (i : s.Idx) (hx : IsFin (x i)) (hu : ∀ j, IsFin (upd j)) :
    IsFin (Host.scatterAdd d x idx upd i) :=
  hostScatterAdd_fin d x idx upd i hx hu

/-- Every gathered entry is an entry of the table gathered from. -/
theorem gather_fin {s si t : Shape} {w : Nat} (d : GatherDims s si t) (x : s.Idx → EReal) (idx : IVec si w)
    (hx : ∀ i, IsFin (x i)) (j : t.Idx) : IsFin (Host.gather d x idx j) :=
  hx _

/-- A literal broadcast to any shape holds that literal at every index. -/
theorem bcast_const_fin {s t : Shape} (dims : Fin s.rank → Fin t.rank) (hb : s.BroadcastsInDim t dims) (φ : FTy)
    (b : BitVec φ.bits) (hc : IsFin (Ideal.ofBits φ b)) (i : t.Idx) :
    IsFin (broadcastInDim t dims hb (constant (F := Ideal) s φ b) i) :=
  hc

/-- A gathered entry is an entry of h, and an entry of the scattered sum is zero plus a finite sum of gathered
    entries: real wherever every entry of h is. -/
theorem pooled_fin (h : (⟨S100000x128, .f32⟩ : BufTy).Contents (Elt Ideal))
    (src dst : (⟨S1600000, .i32⟩ : BufTy).Contents (Elt Ideal))
    (hh : ∀ i, IsFin (h i)) (i : S100000x128.Idx) : IsFin (pooled h src dst i) := by
  -- the entry is an accumulating scatter's: its starting entry plus a finite sum of update entries
  unfold pooled
  refine scatterAdd_fin _ _ _ _ i ?_ ?_
  -- the starting entry is the zero literal, the real number 0
  · exact bcast_const_fin _ _ _ _ ⟨0, by rw [EReal.coe_zero]; exact cZ_eq⟩ i
  -- an update entry is a gathered entry, an entry of h
  · exact gather_fin _ _ _ hh

end Cert.Pooled

end
-- ==== Proof.PreFin.lean ====
import proofs.«151981_j22643067584730_1_alg».proof.Pre_finite_inputs
import proofs.«151981_j22643067584730_1_alg».proof.Proof.Spec
import Idealize.ShloMosaic.Lib.ReduceAll
import Idealize.ShloMosaic.Lib.ValueIdx

noncomputable section

namespace Cert.PreFin

open Idealize.ShloMosaic Idealize.ShloMosaic.ValueIdx Cert.Bn

/-- A rank-0 array has one index. -/
instance : Subsingleton Cert.Pre_finite_inputs.S_.Idx := ⟨fun a b => funext fun d => d.elim0⟩

/-- The pattern 0x7F800000 (sign 0, exponent all ones, fraction 0) is plus infinity. -/
theorem inf_eq : (Ideal.ofBits .f32 0x7F800000#32 : EReal) = ⊤ := by
  simp [Ideal.ofBits, Ideal.ieee]

/-- The entry fact: |x| = max x (-x) lies strictly below plus infinity only when x is a real number
    (at x = ⊤ the maximum is ⊤; at x = ⊥ it is -⊥ = ⊤). -/
theorem isFin_of_abs_lt {x y : EReal} (hy : y = ⊤)
    (h : FloatOps.cmpf (F := Ideal) (φ := .f32) .olt (FloatOps.hostAbsf (F := Ideal) (φ := .f32) x) y = 1#1) : IsFin x := by
  subst hy
  -- at the ideal values the comparison is the linear order's, and |x| is max x (-x)
  have h' : Ideal.cmp .olt (max x (-x)) ⊤ = 1#1 := h
  induction x using EReal.rec with
  | bot => simp [Ideal.cmp] at h'
  | coe r => exact ⟨r, rfl⟩
  | top => simp [Ideal.cmp] at h'

/-- An array all of whose entries pass the test |x| < +inf (the conjunction over all axes came out true)
    is entrywise real. -/
theorem all_fin {s : Shape} {axes : List (Fin s.rank)} (x y : FVec Ideal s .f32) (hy : ∀ i, y i = ⊤)
    (init : IVec Cert.Pre_finite_inputs.S_ 1) (hr : s.ReducesTo axes Cert.Pre_finite_inputs.S_)
    (hu : 0 < Cert.Pre_finite_inputs.S_.numel)
    (e : Host.reduce IntOp.andi (cmpf .olt (Host.absf x) y) init hr hu ix0 = 1#1) (i : s.Idx) : IsFin (x i) :=
  isFin_of_abs_lt (hy i) (Host.reduce_andi_all _ init hr hu ix0 e i)

/-- The precondition says, array by array, that every entry's absolute value is below plus infinity, the ten
    tests conjoined; at the ideal values that is: every entry of every float argument is a real number. -/
theorem of_fn [Cert.Pre_finite_inputs.Facts] (x0 : FVec Ideal Cert.Pre_finite_inputs.S100000x128 .f32) (x1 x2 : IVec Cert.Pre_finite_inputs.S1600000 32)
    (x3 : FVec Ideal Cert.Pre_finite_inputs.S128x128 .f32) (x4 x5 x6 : FVec Ideal Cert.Pre_finite_inputs.S128 .f32) (x7 : FVec Ideal Cert.Pre_finite_inputs.S128x128 .f32)
    (x8 x9 x10 : FVec Ideal Cert.Pre_finite_inputs.S128 .f32) (x11 : FVec Ideal Cert.Pre_finite_inputs.S_ .f32)
    (h : Cert.Pre_finite_inputs.fn (F := Ideal) x0 x1 x2 x3 x4 x5 x6 x7 x8 x9 x10 x11 = (fun _ => 1#1)) :
    (∀ i, IsFin (x0 i)) ∧ (∀ i, IsFin (x3 i)) ∧ (∀ i, IsFin (x4 i)) ∧ (∀ i, IsFin (x5 i)) ∧ (∀ i, IsFin (x6 i))
      ∧ (∀ i, IsFin (x7 i)) ∧ (∀ i, IsFin (x8 i)) ∧ (∀ i, IsFin (x9 i)) ∧ (∀ i, IsFin (x10 i)) ∧ (∀ i, IsFin (x11 i)) := by
  have h0 := congrFun h ix0
  dsimp only [Cert.Pre_finite_inputs.fn, Cert.Pre_finite_inputs.fn_part1, Cert.Pre_finite_inputs.fn_part2] at h0
  -- the conjunction nests to the left, in program order
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  have top : ∀ {s : Shape} (hb : Cert.Pre_finite_inputs.S_.BroadcastsInDim s (![] : Fin 0 → Fin s.rank)) (i : s.Idx),
      (broadcastInDim s ![] hb (constant (F := Ideal) Cert.Pre_finite_inputs.S_ .f32 0x7F800000#32)) i = ⊤ :=
    fun _ _ => inf_eq
  exact ⟨all_fin x0 _ (top _) _ _ _ e0, all_fin x3 _ (top _) _ _ _ e3, all_fin x4 _ (top _) _ _ _ e4,
    all_fin x5 _ (top _) _ _ _ e5, all_fin x6 _ (top _) _ _ _ e6, all_fin x7 _ (top _) _ _ _ e7,
    all_fin x8 _ (top _) _ _ _ e8, all_fin x9 _ (top _) _ _ _ e9, all_fin x10 _ (top _) _ _ _ e10,
    all_fin x11 _ (fun _ => inf_eq) _ _ _ e11⟩

end Cert.PreFin

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.K0.lean ====
import proofs.«151981_j22643067584730_1_alg».proof.Proof.Gen.KernelIdeal.Frame
import proofs.«151981_j22643067584730_1_alg».proof.Proof.Spec
import proofs.«151981_j22643067584730_1_alg».proof.Proof.Shapes
import proofs.«151981_j22643067584730_1_alg».proof.Proof.LibPlainDot
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.K0

open Cert.KernelIdeal Cert.KernelIdeal.Gen Cert.Bn

variable (V : (c : Dev nD) → (b : Ref sig .tc) → Buf (Elt Ideal) ((c : Thread nD τ).loc b))

theorem hz : (![0, 0] : Fin 2 → Nat) = fun _ => 0 := funext fun a => by fin_cases a <;> rfl

/-- A later point adds, into what the first output buffer holds, this block's column sums. -/
theorem out_B_5 (c : Dev nD) (i : grid0.Coords) (a1 : Memref sig .tc .vmem S5000x128 .f32) (h1 : a1.IsWhole) (a2 : Memref sig .tc .vmem S5000x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (hc : ¬cond0_0 i) (x0 : Vec Ideal S5000x128 .f32) (x1 : Vec Ideal S5000x128 .f32) (x2 : Vec Ideal S1x128 .f32) (x3 : Vec Ideal S128x128 .f32) (x4 : Vec Ideal S1x128 .f32) (xo5 xo6 : Vec Ideal S1x128 .f32) :
    out0_B_5 c i a1 h1 a2 h2 a3 h3 a4 h4 a5 h5 a6 h6 a7 h7 hc x0 x1 x2 x3 x4 xo5 xo6 = k0_pay4 x0 x2 x1 x3 x4 xo5 := by
  unfold out0_B_5
  rw [View.read_writes_eq_canon _ _ _ (cover0_B_5 c i a1 h1 a2 h2 a3 h3 a4 h4 a5 h5 a6 h6 a7 h7 hc x0 x1 x2 x3 x4 xo5 xo6)]
  unfold kernelRun0_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x128) hz, View.ld_unit_zero (S := S128x128) hz, View.ld_unit_zero (S := S1x128) hz]

/-- A later point adds, into what the second output buffer holds, this block's column sums of squares. -/
theorem out_B_6 (c : Dev nD) (i : grid0.Coords) (a1 : Memref sig .tc .vmem S5000x128 .f32) (h1 : a1.IsWhole) (a2 : Memref sig .tc .vmem S5000x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (hc : ¬cond0_0 i) (x0 : Vec Ideal S5000x128 .f32) (x1 : Vec Ideal S5000x128 .f32) (x2 : Vec Ideal S1x128 .f32) (x3 : Vec Ideal S128x128 .f32) (x4 : Vec Ideal S1x128 .f32) (xo5 xo6 : Vec Ideal S1x128 .f32) :
    out0_B_6 c i a1 h1 a2 h2 a3 h3 a4 h4 a5 h5 a6 h6 a7 h7 hc x0 x1 x2 x3 x4 xo5 xo6 = k0_pay5 x0 x2 x1 x3 x4 xo6 := by
  unfold out0_B_6
  rw [View.read_writes_eq_canon _ _ _ (cover0_B_6 c i a1 h1 a2 h2 a3 h3 a4 h4 a5 h5 a6 h6 a7 h7 hc x0 x1 x2 x3 x4 xo5 xo6)]
  unfold kernelRun0_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x128) hz, View.ld_unit_zero (S := S128x128) hz, View.ld_unit_zero (S := S1x128) hz]

/-- The first point stores the zero row, reads it back, and adds this block's column sums. -/
theorem out_A_5 (c : Dev nD) (i : grid0.Coords) (a1 : Memref sig .tc .vmem S5000x128 .f32) (h1 : a1.IsWhole) (a2 : Memref sig .tc .vmem S5000x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (hc : cond0_0 i) (x0 : Vec Ideal S5000x128 .f32) (x1 : Vec Ideal S5000x128 .f32) (x2 : Vec Ideal S1x128 .f32) (x3 : Vec Ideal S128x128 .f32) (x4 : Vec Ideal S1x128 .f32) :
    out0_A_5 c i a1 h1 a2 h2 a3 h3 a4 h4 a5 h5 a6 h6 a7 h7 hc x0 x1 x2 x3 x4 = k0_pay4 x0 x2 x1 x3 x4 (k0_pay1 (F := Ideal)) := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, View.ld_unit_zero (S := S5000x128) hz, View.ld_unit_zero (S := S128x128) hz, View.ld_unit_zero (S := S1x128) hz]

/-- The first point does the same for the second output: zeros, then this block's column sums of squares. -/
theorem out_A_6 (c : Dev nD) (i : grid0.Coords) (a1 : Memref sig .tc .vmem S5000x128 .f32) (h1 : a1.IsWhole) (a2 : Memref sig .tc .vmem S5000x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S1x128 .f32) (h6 : a6.IsWhole) (a7 : Memref sig .tc .vmem S1x128 .f32) (h7 : a7.IsWhole) (hc : cond0_0 i) (x0 : Vec Ideal S5000x128 .f32) (x1 : Vec Ideal S5000x128 .f32) (x2 : Vec Ideal S1x128 .f32) (x3 : Vec Ideal S128x128 .f32) (x4 : Vec Ideal S1x128 .f32) :
    out0_A_6 c i a1 h1 a2 h2 a3 h3 a4 h4 a5 h5 a6 h6 a7 h7 hc x0 x1 x2 x3 x4 = k0_pay5 x0 x2 x1 x3 x4 (k0_pay2 (F := Ideal)) := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, View.ld_unit_zero (S := S5000x128) hz, View.ld_unit_zero (S := S128x128) hz, View.ld_unit_zero (S := S1x128) hz]

/-- Over column q of the [128] row of lane sums, the reduced-away row coordinate r put back is entry (r, q). -/
theorem lift_row (q : Fin 128) (r : Fin 5000) :
    reduces_S5000x128_S128.lift (ix1 q) r = ix2 r q := by
  funext a
  apply Fin.ext
  match a with
  | ⟨0, _⟩ => rfl
  | ⟨1, _⟩ => rfl

/-- One block's entry (r, q) of y: the row of pooled + scale * h against column q of W, plus the bias. -/
theorem pay3_apply (x0 : Vec Ideal S5000x128 .f32) (x1 : Vec Ideal S5000x128 .f32) (x2 : Vec Ideal S1x128 .f32) (x3 : Vec Ideal S128x128 .f32) (x4 : Vec Ideal S1x128 .f32) (r : Fin 5000) (q : Fin 128) :
    (k0_pay3 x0 x2 x1 x3 x4 : FVec Ideal S5000x128 .f32) (ix2 r q)
      = (∑ k : Fin 128, (x0 (ix2 r k) + x2 (ix2 0 k) * x1 (ix2 r k)) * x3 (ix2 k q)) + x4 (ix2 0 q) := by
  unfold k0_pay3
  rw [addf_apply]
  refine congrArg₂ (· + ·) ?_ ?_
  · refine (PlainDot.matmul_zero_apply 5000 128 128 none _ _ (ix2 r q)).trans ?_
    refine Finset.sum_congr rfl fun k _ => ?_
    simp only [truncf_apply, addf_apply, mulf_apply, shapeCast_self, broadcastTo_1b_ab_apply]
  · rw [broadcastTo_1b_ab_apply, shapeCast_self]

/-- The first output's payload at column q: what the buffer held plus the block's column sum of y. -/
theorem pay4_apply (x0 : Vec Ideal S5000x128 .f32) (x1 : Vec Ideal S5000x128 .f32) (x2 : Vec Ideal S1x128 .f32) (x3 : Vec Ideal S128x128 .f32) (x4 : Vec Ideal S1x128 .f32) (acc : Vec Ideal S1x128 .f32) (q : Fin 128) :
    (k0_pay4 x0 x2 x1 x3 x4 acc : FVec Ideal S1x128 .f32) (ix2 0 q)
      = acc (ix2 0 q) + ∑ r : Fin 5000, (k0_pay3 x0 x2 x1 x3 x4 : FVec Ideal S5000x128 .f32) (ix2 r q) := by
  unfold k0_pay4
  rw [addf_apply, shapeCast_self]
  refine congrArg (acc (ix2 0 q) + ·) ?_
  refine (shapeCast_a_1a_apply _ _ 0 q).trans ?_
  refine (Ideal.multiReduction_add_single _ _ reduces_S5000x128_S128 _ _ (ix1 q)).trans ?_
  refine Finset.sum_congr rfl fun r _ => ?_
  exact congrArg (k0_pay3 x0 x2 x1 x3 x4 : FVec Ideal S5000x128 .f32) (lift_row q r)

/-- The second output's payload at column q: what the buffer held plus the block's column sum of y * y. -/
theorem pay5_apply (x0 : Vec Ideal S5000x128 .f32) (x1 : Vec Ideal S5000x128 .f32) (x2 : Vec Ideal S1x128 .f32) (x3 : Vec Ideal S128x128 .f32) (x4 : Vec Ideal S1x128 .f32) (acc : Vec Ideal S1x128 .f32) (q : Fin 128) :
    (k0_pay5 x0 x2 x1 x3 x4 acc : FVec Ideal S1x128 .f32) (ix2 0 q)
      = acc (ix2 0 q) + ∑ r : Fin 5000, (k0_pay3 x0 x2 x1 x3 x4 : FVec Ideal S5000x128 .f32) (ix2 r q)
          * (k0_pay3 x0 x2 x1 x3 x4 : FVec Ideal S5000x128 .f32) (ix2 r q) := by
  unfold k0_pay5
  rw [addf_apply, shapeCast_self]
  refine congrArg (acc (ix2 0 q) + ·) ?_
  refine (shapeCast_a_1a_apply _ _ 0 q).trans ?_
  refine (Ideal.multiReduction_add_single _ _ reduces_S5000x128_S128 _ _ (ix1 q)).trans ?_
  refine Finset.sum_congr rfl fun r _ => ?_
  exact congrArg (fun j => (k0_pay3 x0 x2 x1 x3 x4 : FVec Ideal S5000x128 .f32) j
    * (k0_pay3 x0 x2 x1 x3 x4 : FVec Ideal S5000x128 .f32) j) (lift_row q r)

/-- The blocks the windows hand the body at point t, at their literal shapes. -/
abbrev pooledBlk (c : Dev nD) (t : Fin cfg0.N) : Vec Ideal S5000x128 .f32 := iblk0 V c 0 t
abbrev hBlk (c : Dev nD) (t : Fin cfg0.N) : Vec Ideal S5000x128 .f32 := iblk0 V c 1 t
abbrev scaleBlk (c : Dev nD) (t : Fin cfg0.N) : Vec Ideal S1x128 .f32 := iblk0 V c 2 t
abbrev wBlk (c : Dev nD) (t : Fin cfg0.N) : Vec Ideal S128x128 .f32 := iblk0 V c 3 t
abbrev biasBlk (c : Dev nD) (t : Fin cfg0.N) : Vec Ideal S1x128 .f32 := iblk0 V c 4 t

/-- The index maps over the grid: the two row-blocked windows move with the point, the others stay at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row r of the pooled block at point t is row 5000 t + r of the array. -/
theorem pooledBlk_apply (c : Dev nD) (t : Fin cfg0.N) (r : Fin 5000) (k : Fin 128) (h : 5000 * t.val + r.val < 100000) :
    pooledBlk V c t (ix2 r k) = V c main_v9 (ix2 ⟨5000 * t.val + r.val, h⟩ k) := by
  obtain ⟨e0, e1, -⟩ := idx_facts t
  unfold pooledBlk iblk0
  rw [View.read_apply]
  show V c main_v9 _ = V c main_v9 _
  congr 1
  funext a
  apply Fin.ext
  match a with
  | ⟨0, _⟩ => show win0_0.index t (0 : Fin 2) * 5000 + 1 * r.val = 5000 * t.val + r.val; rw [e0]; omega
  | ⟨1, _⟩ => show win0_0.index t (1 : Fin 2) * 128 + 1 * k.val = k.val; rw [e1]; omega

/-- Row r of the h block at point t is row 5000 t + r of the array. -/
theorem hBlk_apply (c : Dev nD) (t : Fin cfg0.N) (r : Fin 5000) (k : Fin 128) (h : 5000 * t.val + r.val < 100000) :
    hBlk V c t (ix2 r k) = V c main_arg0 (ix2 ⟨5000 * t.val + r.val, h⟩ k) := by
  obtain ⟨-, -, e0, e1, -⟩ := idx_facts t
  unfold hBlk iblk0
  rw [View.read_apply]
  show V c main_arg0 _ = V c main_arg0 _
  congr 1
  funext a
  apply Fin.ext
  match a with
  | ⟨0, _⟩ => show win0_1.index t (0 : Fin 2) * 5000 + 1 * r.val = 5000 * t.val + r.val; rw [e0]; omega
  | ⟨1, _⟩ => show win0_1.index t (1 : Fin 2) * 128 + 1 * k.val = k.val; rw [e1]; omega

/-- The scale row's block is the whole row at every point. -/
theorem scaleBlk_apply (c : Dev nD) (t : Fin cfg0.N) (k : Fin 128) :
    scaleBlk V c t (ix2 0 k) = V c main_v12 (ix2 0 k) := by
  obtain ⟨-, -, -, -, e0, e1, -⟩ := idx_facts t
  unfold scaleBlk iblk0
  rw [View.read_apply]
  show V c main_v12 _ = V c main_v12 _
  congr 1
  funext a
  apply Fin.ext
  match a with
  | ⟨0, _⟩ => show win0_2.index t (0 : Fin 2) * 1 + 1 * 0 = 0; rw [e0]
  | ⟨1, _⟩ => show win0_2.index t (1 : Fin 2) * 128 + 1 * k.val = k.val; rw [e1]; omega

/-- The weight's block is the whole matrix at every point. -/
theorem wBlk_apply (c : Dev nD) (t : Fin cfg0.N) (k q : Fin 128) :
    wBlk V c t (ix2 k q) = V c main_arg3 (ix2 k q) := by
  obtain ⟨-, -, -, -, -, -, e0, e1, -⟩ := idx_facts t
  unfold wBlk iblk0
  rw [View.read_apply]
  show V c main_arg3 _ = V c main_arg3 _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The bias row's block is the whole row at every point. -/
theorem biasBlk_apply (c : Dev nD) (t : Fin cfg0.N) (q : Fin 128) :
    biasBlk V c t (ix2 0 q) = V c main_v13 (ix2 0 q) := by
  obtain ⟨-, -, -, -, -, -, -, -, e0, e1⟩ := idx_facts t
  unfold biasBlk iblk0
  rw [View.read_apply]
  show V c main_v13 _ = V c main_v13 _
  congr 1
  funext a
  apply Fin.ext
  match a with
  | ⟨0, _⟩ => show win0_4.index t (0 : Fin 2) * 1 + 1 * 0 = 0; rw [e0]
  | ⟨1, _⟩ => show win0_4.index t (1 : Fin 2) * 128 + 1 * q.val = q.val; rw [e1]; omega

/-- The layer's pre-activation y = (pooled + scale * h) W + b, read off the region's arrays. -/
abbrev yArr (c : Dev nD) : Fin 100000 → Fin 128 → EReal :=
  lin (xin (V c main_v9) (V c main_arg0) (row (V c main_v12))) (mat (V c main_arg3)) (row (V c main_v13))

/-- Entry (r, q) of the y the body computes at point t is entry (5000 t + r, q) of the whole y. -/
theorem yBlk_apply (c : Dev nD) (t : Fin cfg0.N) (r : Fin 5000) (q : Fin 128) (h : 5000 * t.val + r.val < 100000) :
    (k0_pay3 (pooledBlk V c t) (scaleBlk V c t) (hBlk V c t) (wBlk V c t) (biasBlk V c t) : FVec Ideal S5000x128 .f32) (ix2 r q)
      = yArr V c ⟨5000 * t.val + r.val, h⟩ q := by
  refine (pay3_apply (pooledBlk V c t) (hBlk V c t) (scaleBlk V c t) (wBlk V c t) (biasBlk V c t) r q).trans ?_
  rw [biasBlk_apply]
  refine congrArg₂ (· + ·) (Finset.sum_congr rfl fun k _ => ?_) rfl
  rw [pooledBlk_apply V c t r k h, hBlk_apply V c t r k h, scaleBlk_apply, wBlk_apply]
  rfl

/-- So the block's column sums at point t are the whole arrays' sums over rows 5000 t … 5000 t + 4999. -/
theorem ySum_blk (c : Dev nD) (t : Fin cfg0.N) (q : Fin 128) :
    ∑ r : Fin 5000, (k0_pay3 (pooledBlk V c t) (scaleBlk V c t) (hBlk V c t) (wBlk V c t) (biasBlk V c t) : FVec Ideal S5000x128 .f32) (ix2 r q)
      = blockSum (fun p => yArr V c p q) t.val := by
  have hN : cfg0.N = 20 := N_0
  have ht : t.val < 20 := by have := t.isLt; omega
  unfold blockSum
  refine Finset.sum_congr rfl fun r _ => ?_
  have h : 5000 * t.val + r.val < 100000 := by have := r.isLt; omega
  rw [dif_pos h]
  exact yBlk_apply V c t r q h

theorem ySqSum_blk (c : Dev nD) (t : Fin cfg0.N) (q : Fin 128) :
    ∑ r : Fin 5000, (k0_pay3 (pooledBlk V c t) (scaleBlk V c t) (hBlk V c t) (wBlk V c t) (biasBlk V c t) : FVec Ideal S5000x128 .f32) (ix2 r q)
        * (k0_pay3 (pooledBlk V c t) (scaleBlk V c t) (hBlk V c t) (wBlk V c t) (biasBlk V c t) : FVec Ideal S5000x128 .f32) (ix2 r q)
      = blockSum (fun p => yArr V c p q * yArr V c p q) t.val := by
  have hN : cfg0.N = 20 := N_0
  have ht : t.val < 20 := by have := t.isLt; omega
  unfold blockSum
  refine Finset.sum_congr rfl fun r _ => ?_
  have h : 5000 * t.val + r.val < 100000 := by have := r.isLt; omega
  rw [dif_pos h, yBlk_apply V c t r q h]

/-- The zero row the first point stores reads the zero literal in every column. -/
theorem pay1_apply (q : Fin 128) : (k0_pay1 (F := Ideal) : FVec Ideal S1x128 .f32) (ix2 0 q) = cZ := rfl
theorem pay2_apply (q : Fin 128) : (k0_pay2 (F := Ideal) : FVec Ideal S1x128 .f32) (ix2 0 q) = cZ := rfl

/-- After point 0 the two output buffers hold the zero rows plus block 0's column sums. -/
theorem outs_zero (c : Dev nD) (hn : 0 < cfg0.N) :
    outsAt0 V c 0 hn
      = (k0_pay4 (pooledBlk V c ⟨0, hn⟩) (scaleBlk V c ⟨0, hn⟩) (hBlk V c ⟨0, hn⟩) (wBlk V c ⟨0, hn⟩) (biasBlk V c ⟨0, hn⟩) (k0_pay1 (F := Ideal)),
         k0_pay5 (pooledBlk V c ⟨0, hn⟩) (scaleBlk V c ⟨0, hn⟩) (hBlk V c ⟨0, hn⟩) (wBlk V c ⟨0, hn⟩) (biasBlk V c ⟨0, hn⟩) (k0_pay2 (F := Ideal))) :=
  (outsAt0_A V c ⟨0, hn⟩ rfl).trans (congrArg₂ Prod.mk
    (out_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr rfl) (pooledBlk V c ⟨0, hn⟩) (hBlk V c ⟨0, hn⟩) (scaleBlk V c ⟨0, hn⟩) (wBlk V c ⟨0, hn⟩) (biasBlk V c ⟨0, hn⟩))
    (out_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr rfl) (pooledBlk V c ⟨0, hn⟩) (hBlk V c ⟨0, hn⟩) (scaleBlk V c ⟨0, hn⟩) (wBlk V c ⟨0, hn⟩) (biasBlk V c ⟨0, hn⟩)))

/-- After a later point they hold what the point before left plus that point's block's column sums. -/
theorem outs_succ (c : Dev nD) (n : ℕ) (hn : n + 1 < cfg0.N) :
    outsAt0 V c (n + 1) hn
      = (k0_pay4 (pooledBlk V c ⟨n + 1, hn⟩) (scaleBlk V c ⟨n + 1, hn⟩) (hBlk V c ⟨n + 1, hn⟩) (wBlk V c ⟨n + 1, hn⟩) (biasBlk V c ⟨n + 1, hn⟩) (outsAt0 V c n (Nat.lt_of_succ_lt hn)).1,
         k0_pay5 (pooledBlk V c ⟨n + 1, hn⟩) (scaleBlk V c ⟨n + 1, hn⟩) (hBlk V c ⟨n + 1, hn⟩) (wBlk V c ⟨n + 1, hn⟩) (biasBlk V c ⟨n + 1, hn⟩) (outsAt0 V c n (Nat.lt_of_succ_lt hn)).2) := by
  have hN : cfg0.N = 20 := N_0
  have hB : ¬(⟨n + 1, hn⟩ : Fin cfg0.N).val % 20 = 0 := by dsimp only; omega
  exact (outsAt0_B V c ⟨n + 1, hn⟩ hB).trans (congrArg₂ Prod.mk
    (out_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => hB ((hcond0_0 ⟨n + 1, hn⟩).mp h)) (pooledBlk V c ⟨n + 1, hn⟩) (hBlk V c ⟨n + 1, hn⟩) (scaleBlk V c ⟨n + 1, hn⟩) (wBlk V c ⟨n + 1, hn⟩) (biasBlk V c ⟨n + 1, hn⟩) (outsAt0 V c n (Nat.lt_of_succ_lt hn)).1 (outsAt0 V c n (Nat.lt_of_succ_lt hn)).2)
    (out_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => hB ((hcond0_0 ⟨n + 1, hn⟩).mp h)) (pooledBlk V c ⟨n + 1, hn⟩) (hBlk V c ⟨n + 1, hn⟩) (scaleBlk V c ⟨n + 1, hn⟩) (wBlk V c ⟨n + 1, hn⟩) (biasBlk V c ⟨n + 1, hn⟩) (outsAt0 V c n (Nat.lt_of_succ_lt hn)).1 (outsAt0 V c n (Nat.lt_of_succ_lt hn)).2))

/-- So after point n, column q of the two buffers is the zero literal plus the sums, over blocks 0 … n, of the
    blocks' column sums of y and of y * y: by induction on the point. -/
theorem outs_apply (c : Dev nD) (q : Fin 128) : ∀ (n : ℕ) (hn : n < cfg0.N),
    (outsAt0 V c n hn).1 (ix2 0 q) = cZ + ∑ s ∈ Finset.range (n + 1), blockSum (fun p => yArr V c p q) s
    ∧ (outsAt0 V c n hn).2 (ix2 0 q)
        = cZ + ∑ s ∈ Finset.range (n + 1), blockSum (fun p => yArr V c p q * yArr V c p q) s
  | 0, hn => by
    rw [outs_zero V c hn]
    dsimp only
    rw [Finset.sum_range_one, Finset.sum_range_one]
    exact ⟨(pay4_apply (pooledBlk V c ⟨0, hn⟩) (hBlk V c ⟨0, hn⟩) (scaleBlk V c ⟨0, hn⟩) (wBlk V c ⟨0, hn⟩) (biasBlk V c ⟨0, hn⟩) (k0_pay1 (F := Ideal)) q).trans
        (congrArg₂ (· + ·) (pay1_apply q) (ySum_blk V c ⟨0, hn⟩ q)),
      (pay5_apply (pooledBlk V c ⟨0, hn⟩) (hBlk V c ⟨0, hn⟩) (scaleBlk V c ⟨0, hn⟩) (wBlk V c ⟨0, hn⟩) (biasBlk V c ⟨0, hn⟩) (k0_pay2 (F := Ideal)) q).trans
        (congrArg₂ (· + ·) (pay2_apply q) (ySqSum_blk V c ⟨0, hn⟩ q))⟩
  | n + 1, hn => by
    obtain ⟨ih1, ih2⟩ := outs_apply c q n (Nat.lt_of_succ_lt hn)
    rw [outs_succ V c n hn]
    dsimp only
    rw [Finset.sum_range_succ _ (n + 1), Finset.sum_range_succ _ (n + 1), ← add_assoc, ← add_assoc, ← ih1, ← ih2]
    exact ⟨(pay4_apply (pooledBlk V c ⟨n + 1, hn⟩) (hBlk V c ⟨n + 1, hn⟩) (scaleBlk V c ⟨n + 1, hn⟩) (wBlk V c ⟨n + 1, hn⟩) (biasBlk V c ⟨n + 1, hn⟩) (outsAt0 V c n (Nat.lt_of_succ_lt hn)).1 q).trans
        (congrArg (_ + ·) (ySum_blk V c ⟨n + 1, hn⟩ q)),
      (pay5_apply (pooledBlk V c ⟨n + 1, hn⟩) (hBlk V c ⟨n + 1, hn⟩) (scaleBlk V c ⟨n + 1, hn⟩) (wBlk V c ⟨n + 1, hn⟩) (biasBlk V c ⟨n + 1, hn⟩) (outsAt0 V c n (Nat.lt_of_succ_lt hn)).2 q).trans
        (congrArg (_ + ·) (ySqSum_blk V c ⟨n + 1, hn⟩ q))⟩

theorem h19 : 19 < cfg0.N := by rw [show cfg0.N = 20 from N_0]; decide

/-- What the two output buffers hold after the last point. -/
abbrev res5 (c : Dev nD) : Buf (Elt Ideal) ((c : Thread nD τ).loc main_v19_0) := (outsAt0 V c 19 h19).1
abbrev res6 (c : Dev nD) : Buf (Elt Ideal) ((c : Thread nD τ).loc main_v19_1) := (outsAt0 V c 19 h19).2

/-- The output windows' index maps and block extents over the grid: block (0, 0), the whole [1,128] array. -/
theorem out_idx : ∀ t : Fin cfg0.N,
    win0_5.index t (0 : Fin 2) = 0 ∧ win0_5.index t (1 : Fin 2) = 0
    ∧ win0_6.index t (0 : Fin 2) = 0 ∧ win0_6.index t (1 : Fin 2) = 0
    ∧ win0_5.xsize (grid0.coords t) (0 : Fin 2) = 1 ∧ win0_5.xsize (grid0.coords t) (1 : Fin 2) = 128
    ∧ win0_6.xsize (grid0.coords t) (0 : Fin 2) = 1 ∧ win0_6.xsize (grid0.coords t) (1 : Fin 2) = 128 :=
  (by decide +kernel : ∀ t : Fin grid0.N, _)

/-- The one write-back of output 5, after the last point, writes the buffer's contents: block (0, 0) of the
    [1,128] array read through zero offsets is the array. -/
theorem flushed5_eq (c : Dev nD) (t : Fin cfg0.N) (hf : (cfg0.win 5).flush t = true) :
    (dat0 V c).flushed 5 t = ((cfg0.win 5).blk t).view.read (Elt Ideal) (res5 V c) := by
  have hN : cfg0.N = 20 := N_0
  have h3 : t.val = 19 := by have := (flush0_5 t).mp hf; have := t.isLt; omega
  obtain rfl : t = ⟨19, h19⟩ := Fin.ext h3
  show (cfg0.win 5).cut (grid0.coords ⟨19, h19⟩) ((dat0 V c).after 5 ⟨19, h19⟩) = _
  rw [after0_5]
  obtain ⟨e0, e1, -, -, x0, x1, -, -⟩ := out_idx ⟨19, h19⟩
  have hz' : (fun a => win0_5.index ⟨19, h19⟩ a * main_v19_0.ty.shape.size a) = fun _ => 0 := funext fun a => by
    match a with
    | ⟨0, _⟩ => show win0_5.index ⟨19, h19⟩ (0 : Fin 2) * 1 = 0; rw [e0]
    | ⟨1, _⟩ => show win0_5.index ⟨19, h19⟩ (1 : Fin 2) * 128 = 0; rw [e1]
  exact (Memref.read_access_unit_zero (Elt Ideal) main_v19_0 hz' (fun a => by rw [congrFun hz' a]; simp) (res5 V c)).symm

/-- So output array 5 ends holding what its buffer holds after the last point: that point's block covers it. -/
theorem final5 (c : Dev nD) : (dat0 V c).arrAt 5 cfg0.N = res5 V c :=
  (dat0 V c).arrAt_eq_of_cover 5 (res5 V c) (flushed5_eq V c) fun i =>
    ⟨⟨19, h19⟩, (flush0_5 ⟨19, h19⟩).mpr rfl, by
      obtain ⟨e0, e1, -, -, x0, x1, -, -⟩ := out_idx ⟨19, h19⟩
      show i ∈ ((View.whole main_v19_0).slice (win0_5.rect ⟨19, h19⟩)).set
      rw [View.set_slice_whole, Rect.mem_set_unit]
      intro a
      have h0 : (i 0 : Nat) < 1 := (i 0).isLt
      have h1 : (i 1 : Nat) < 128 := (i 1).isLt
      match a with
      | ⟨0, _⟩ => show win0_5.index ⟨19, h19⟩ (0 : Fin 2) * win0_5.size (0 : Fin 2) ≤ (i 0 : Nat) ∧ (i 0 : Nat) < win0_5.index ⟨19, h19⟩ (0 : Fin 2) * win0_5.size (0 : Fin 2) + win0_5.xsize (grid0.coords ⟨19, h19⟩) (0 : Fin 2)
                  rw [e0, x0]; omega
      | ⟨1, _⟩ => show win0_5.index ⟨19, h19⟩ (1 : Fin 2) * win0_5.size (1 : Fin 2) ≤ (i 1 : Nat) ∧ (i 1 : Nat) < win0_5.index ⟨19, h19⟩ (1 : Fin 2) * win0_5.size (1 : Fin 2) + win0_5.xsize (grid0.coords ⟨19, h19⟩) (1 : Fin 2)
                  rw [e1, x1]; omega⟩

/-- The one write-back of output 6, after the last point, writes the buffer's contents: block (0, 0) of the
    [1,128] array read through zero offsets is the array. -/
theorem flushed6_eq (c : Dev nD) (t : Fin cfg0.N) (hf : (cfg0.win 6).flush t = true) :
    (dat0 V c).flushed 6 t = ((cfg0.win 6).blk t).view.read (Elt Ideal) (res6 V c) := by
  have hN : cfg0.N = 20 := N_0
  have h3 : t.val = 19 := by have := (flush0_6 t).mp hf; have := t.isLt; omega
  obtain rfl : t = ⟨19, h19⟩ := Fin.ext h3
  show (cfg0.win 6).cut (grid0.coords ⟨19, h19⟩) ((dat0 V c).after 6 ⟨19, h19⟩) = _
  rw [after0_6]
  obtain ⟨-, -, e0, e1, -, -, x0, x1⟩ := out_idx ⟨19, h19⟩
  have hz' : (fun a => win0_6.index ⟨19, h19⟩ a * main_v19_1.ty.shape.size a) = fun _ => 0 := funext fun a => by
    match a with
    | ⟨0, _⟩ => show win0_6.index ⟨19, h19⟩ (0 : Fin 2) * 1 = 0; rw [e0]
    | ⟨1, _⟩ => show win0_6.index ⟨19, h19⟩ (1 : Fin 2) * 128 = 0; rw [e1]
  exact (Memref.read_access_unit_zero (Elt Ideal) main_v19_1 hz' (fun a => by rw [congrFun hz' a]; simp) (res6 V c)).symm

/-- So output array 6 ends holding what its buffer holds after the last point: that point's block covers it. -/
theorem final6 (c : Dev nD) : (dat0 V c).arrAt 6 cfg0.N = res6 V c :=
  (dat0 V c).arrAt_eq_of_cover 6 (res6 V c) (flushed6_eq V c) fun i =>
    ⟨⟨19, h19⟩, (flush0_6 ⟨19, h19⟩).mpr rfl, by
      obtain ⟨-, -, e0, e1, -, -, x0, x1⟩ := out_idx ⟨19, h19⟩
      show i ∈ ((View.whole main_v19_1).slice (win0_6.rect ⟨19, h19⟩)).set
      rw [View.set_slice_whole, Rect.mem_set_unit]
      intro a
      have h0 : (i 0 : Nat) < 1 := (i 0).isLt
      have h1 : (i 1 : Nat) < 128 := (i 1).isLt
      match a with
      | ⟨0, _⟩ => show win0_6.index ⟨19, h19⟩ (0 : Fin 2) * win0_6.size (0 : Fin 2) ≤ (i 0 : Nat) ∧ (i 0 : Nat) < win0_6.index ⟨19, h19⟩ (0 : Fin 2) * win0_6.size (0 : Fin 2) + win0_6.xsize (grid0.coords ⟨19, h19⟩) (0 : Fin 2)
                  rw [e0, x0]; omega
      | ⟨1, _⟩ => show win0_6.index ⟨19, h19⟩ (1 : Fin 2) * win0_6.size (1 : Fin 2) ≤ (i 1 : Nat) ∧ (i 1 : Nat) < win0_6.index ⟨19, h19⟩ (1 : Fin 2) * win0_6.size (1 : Fin 2) + win0_6.xsize (grid0.coords ⟨19, h19⟩) (1 : Fin 2)
                  rw [e1, x1]; omega⟩

/-- Region 0 (the first layer's statistics): after the last grid point the first output array holds, in column q,
    the zero literal plus the sum over all 100000 rows of y = xin W + b, where xin = pooled + scale * h is read off
    the region's first three arrays; -/
theorem sum_apply (c : Dev nD) (q : Fin 128) :
    row ((dat0 (F := Ideal) V c).arrAt 5 cfg0.N) q
      = s1 (lin (xin (V c main_v9) (V c main_arg0) (row (V c main_v12))) (mat (V c main_arg3)) (row (V c main_v13))) q := by
  refine (congrFun (final5 V c) (ix2 0 q)).trans ?_
  refine ((outs_apply V c q 19 h19).1).trans ?_
  exact congrArg (cZ + ·) (sum_blocks (fun p => yArr V c p q))

/-- and the second output array the zero literal plus the sum of the squares. -/
theorem sumsq_apply (c : Dev nD) (q : Fin 128) :
    row ((dat0 (F := Ideal) V c).arrAt 6 cfg0.N) q
      = s2 (lin (xin (V c main_v9) (V c main_arg0) (row (V c main_v12))) (mat (V c main_arg3)) (row (V c main_v13))) q := by
  refine (congrFun (final6 V c) (ix2 0 q)).trans ?_
  refine ((outs_apply V c q 19 h19).2).trans ?_
  exact congrArg (cZ + ·) (sum_blocks (fun p => yArr V c p q * yArr V c p q))

end Cert.KernelIdeal.K0

end
-- ==== Proof.K1.lean ====
import proofs.«151981_j22643067584730_1_alg».proof.Proof.Gen.KernelIdeal.Frame
import proofs.«151981_j22643067584730_1_alg».proof.Proof.Spec
import proofs.«151981_j22643067584730_1_alg».proof.Proof.Shapes
import proofs.«151981_j22643067584730_1_alg».proof.Proof.LibPlainDot
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.K1

open Cert.KernelIdeal Cert.KernelIdeal.Gen Cert.Bn

variable (V : (c : Dev nD) → (b : Ref sig .tc) → Buf (Elt Ideal) ((c : Thread nD τ).loc b))

/-! ## One block's arithmetic at an entry

The body forms y = (pooled + scale · h) · W + bias on a block of 5000 rows, then
max ((y − mean) · rsqrt (variance + ε) · g + be) 0, the four rows spread over the block's rows. Changes of float format are
the identity on extended reals, so entry (r, q) of the result is the normalisation of
Σ_k (pooled (r, k) + scale k · h (r, k)) · W (k, q) + bias q, with the literals ε and 0 left as their words. -/

/-- A one-row block spread over the 5000 rows reads, at row r and column q, the row's entry at column q. -/
theorem spread_apply (x : FVec Ideal S1x128 .f32) (r : Fin 5000) (q : Fin 128) :
    broadcastTo S5000x128 x broadcasts_S1x128_S5000x128 (ix2 r q) = x (ix2 0 q) := by
  refine broadcastTo_apply x broadcasts_S1x128_S5000x128 (ix2 r q) (ix2 0 q) (fun a => ?_)
  match a with
  | ⟨0, _⟩ => rfl
  | ⟨1, _⟩ => rfl

/-- The product of a 5000 × 128 block by a 128 × 128 matrix into a zero accumulator, at row r and column q. -/
theorem prod_apply (l : FVec Ideal S5000x128 .bf16) (w : FVec Ideal S128x128 .bf16) (r : Fin 5000) (q : Fin 128) :
    matmul dot_S5000x128_S128x128_S5000x128_1_0_0_1_n_n none l w (constant (F := Ideal) S5000x128 .f32 0x00000000#32) (ix2 r q)
      = ∑ k : Fin 128, l (ix2 r k) * w (ix2 k q) :=
  PlainDot.matmul_zero_apply 5000 128 128 none l w (ix2 r q)

/-- Entry (r, q) of the block the body stores: the normalised, scaled, shifted and clamped entry of the product plus bias. -/
theorem pay_apply (x0 x1 : Vec Ideal S5000x128 .f32) (x2 : Vec Ideal S1x128 .f32) (x3 : Vec Ideal S128x128 .f32)
    (x4 x5 x6 x7 x8 : Vec Ideal S1x128 .f32) (r : Fin 5000) (q : Fin 128) :
    k1_pay1 (F := Ideal) x0 x2 x1 x3 x4 x8 x7 x5 x6 (ix2 r q)
      = bn ((∑ k : Fin 128, (x0 (ix2 r k) + x2 (ix2 0 k) * x1 (ix2 r k)) * x3 (ix2 k q)) + x4 (ix2 0 q))
          (x7 (ix2 0 q)) (x8 (ix2 0 q)) (x5 (ix2 0 q)) (x6 (ix2 0 q)) := by
  unfold k1_pay1
  simp only [shapeCast_self]
  simp only [maximumf_apply, addf_apply, mulf_apply, subf_apply, spread_apply, prod_apply, truncf_apply, broadcast_apply]
  unfold bn cZ cE
  rfl

/-! ## From blocks to the array

Point t of the 20-point grid reads rows 5000·t … 5000·t + 4999 of the pooled and node features and the whole of the seven
small arrays, and writes rows 5000·t … 5000·t + 4999 of the output. An entry of the output depends only on its own row of the
two feature arrays, so each written block is the restriction of one function G of the arrays, and the twenty blocks tile the
100000 rows: row p lies in the block of point p / 5000. -/

/-- The zero offset on both axes. -/
theorem hz : (![0, 0] : Fin 2 → Nat) = fun _ => 0 := funext fun a => by fin_cases a <;> rfl

/-- What the region leaves in its output array, index by index. -/
def G (c : Dev nD) : S100000x128.Idx → EReal := fun i =>
  bn (lin (xin (V c main_v9) (V c main_arg0) (row (V c main_v12))) (mat (V c main_arg3)) (row (V c main_v13)) (i 0) (i 1))
    (row (V c main_v21) (i 1)) (row (V c main_v25) (i 1)) (row (V c main_v14) (i 1)) (row (V c main_v15) (i 1))

/-- The block index of the two feature windows and of the output window at point t is (t, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_9.index t (0 : Fin 2) = t.val ∧ win1_9.index t (1 : Fin 2) = 0 :=
  (by decide +kernel : ∀ t : Fin grid1.N, _)

/-- The block index of each of the seven small windows is (0, 0) at every point. -/
theorem idx_const : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- Row r of block t of the pooled features is row 5000·t + r of the array. -/
theorem blk0_apply (c : Dev nD) (t : Fin cfg1.N) (r : Fin 5000) (k : Fin 128) (p : Fin 100000) (hp : p.val = 5000 * t.val + r.val) :
    iblk1 V c 0 t (ix2 r k) = V c main_v9 (ix2 p k) := by
  show V c main_v9 (((cfg1.win 0).blk t).view.emb (ix2 r k)) = V c main_v9 (ix2 p k)
  refine congrArg (V c main_v9) (funext fun a => Fin.ext ?_)
  obtain ⟨e0, e1, -⟩ := idx_facts t
  match a with
  | ⟨0, _⟩ => show win1_0.index t (0 : Fin 2) * 5000 + 1 * r.val = p.val; omega
  | ⟨1, _⟩ => show win1_0.index t (1 : Fin 2) * 128 + 1 * k.val = k.val; omega

/-- Row r of block t of the node features is row 5000·t + r of the array. -/
theorem blk1_apply (c : Dev nD) (t : Fin cfg1.N) (r : Fin 5000) (k : Fin 128) (p : Fin 100000) (hp : p.val = 5000 * t.val + r.val) :
    iblk1 V c 1 t (ix2 r k) = V c main_arg0 (ix2 p k) := by
  show V c main_arg0 (((cfg1.win 1).blk t).view.emb (ix2 r k)) = V c main_arg0 (ix2 p k)
  refine congrArg (V c main_arg0) (funext fun a => Fin.ext ?_)
  obtain ⟨-, -, e0, e1, -⟩ := idx_facts t
  match a with
  | ⟨0, _⟩ => show win1_1.index t (0 : Fin 2) * 5000 + 1 * r.val = p.val; omega
  | ⟨1, _⟩ => show win1_1.index t (1 : Fin 2) * 128 + 1 * k.val = k.val; omega

/-- The scale row's block is the whole row at every point. -/
theorem blk2_apply (c : Dev nD) (t : Fin cfg1.N) (a0 : Fin 1) (k : Fin 128) :
    iblk1 V c 2 t (ix2 a0 k) = V c main_v12 (ix2 a0 k) := by
  show V c main_v12 (((cfg1.win 2).blk t).view.emb (ix2 a0 k)) = V c main_v12 (ix2 a0 k)
  refine congrArg (V c main_v12) (funext fun a => Fin.ext ?_)
  obtain ⟨e20, e21, e30, e31, e40, e41, e50, e51, e60, e61, e70, e71, e80, e81⟩ := idx_const t
  match a with
  | ⟨0, _⟩ => show win1_2.index t (0 : Fin 2) * 1 + 1 * a0.val = a0.val; omega
  | ⟨1, _⟩ => show win1_2.index t (1 : Fin 2) * 128 + 1 * k.val = k.val; omega

/-- The weight matrix's block is the whole matrix at every point. -/
theorem blk3_apply (c : Dev nD) (t : Fin cfg1.N) (a0 : Fin 128) (k : Fin 128) :
    iblk1 V c 3 t (ix2 a0 k) = V c main_arg3 (ix2 a0 k) := by
  show V c main_arg3 (((cfg1.win 3).blk t).view.emb (ix2 a0 k)) = V c main_arg3 (ix2 a0 k)
  refine congrArg (V c main_arg3) (funext fun a => Fin.ext ?_)
  obtain ⟨e20, e21, e30, e31, e40, e41, e50, e51, e60, e61, e70, e71, e80, e81⟩ := idx_const t
  match a with
  | ⟨0, _⟩ => show win1_3.index t (0 : Fin 2) * 128 + 1 * a0.val = a0.val; omega
  | ⟨1, _⟩ => show win1_3.index t (1 : Fin 2) * 128 + 1 * k.val = k.val; omega

/-- The bias row's block is the whole row at every point. -/
theorem blk4_apply (c : Dev nD) (t : Fin cfg1.N) (a0 : Fin 1) (k : Fin 128) :
    iblk1 V c 4 t (ix2 a0 k) = V c main_v13 (ix2 a0 k) := by
  show V c main_v13 (((cfg1.win 4).blk t).view.emb (ix2 a0 k)) = V c main_v13 (ix2 a0 k)
  refine congrArg (V c main_v13) (funext fun a => Fin.ext ?_)
  obtain ⟨e20, e21, e30, e31, e40, e41, e50, e51, e60, e61, e70, e71, e80, e81⟩ := idx_const t
  match a with
  | ⟨0, _⟩ => show win1_4.index t (0 : Fin 2) * 1 + 1 * a0.val = a0.val; omega
  | ⟨1, _⟩ => show win1_4.index t (1 : Fin 2) * 128 + 1 * k.val = k.val; omega

/-- The gain row's block is the whole row at every point. -/
theorem blk5_apply (c : Dev nD) (t : Fin cfg1.N) (a0 : Fin 1) (k : Fin 128) :
    iblk1 V c 5 t (ix2 a0 k) = V c main_v14 (ix2 a0 k) := by
  show V c main_v14 (((cfg1.win 5).blk t).view.emb (ix2 a0 k)) = V c main_v14 (ix2 a0 k)
  refine congrArg (V c main_v14) (funext fun a => Fin.ext ?_)
  obtain ⟨e20, e21, e30, e31, e40, e41, e50, e51, e60, e61, e70, e71, e80, e81⟩ := idx_const t
  match a with
  | ⟨0, _⟩ => show win1_5.index t (0 : Fin 2) * 1 + 1 * a0.val = a0.val; omega
  | ⟨1, _⟩ => show win1_5.index t (1 : Fin 2) * 128 + 1 * k.val = k.val; omega

/-- The shift row's block is the whole row at every point. -/
theorem blk6_apply (c : Dev nD) (t : Fin cfg1.N) (a0 : Fin 1) (k : Fin 128) :
    iblk1 V c 6 t (ix2 a0 k) = V c main_v15 (ix2 a0 k) := by
  show V c main_v15 (((cfg1.win 6).blk t).view.emb (ix2 a0 k)) = V c main_v15 (ix2 a0 k)
  refine congrArg (V c main_v15) (funext fun a => Fin.ext ?_)
  obtain ⟨e20, e21, e30, e31, e40, e41, e50, e51, e60, e61, e70, e71, e80, e81⟩ := idx_const t
  match a with
  | ⟨0, _⟩ => show win1_6.index t (0 : Fin 2) * 1 + 1 * a0.val = a0.val; omega
  | ⟨1, _⟩ => show win1_6.index t (1 : Fin 2) * 128 + 1 * k.val = k.val; omega

/-- The mean row's block is the whole row at every point. -/
theorem blk7_apply (c : Dev nD) (t : Fin cfg1.N) (a0 : Fin 1) (k : Fin 128) :
    iblk1 V c 7 t (ix2 a0 k) = V c main_v21 (ix2 a0 k) := by
  show V c main_v21 (((cfg1.win 7).blk t).view.emb (ix2 a0 k)) = V c main_v21 (ix2 a0 k)
  refine congrArg (V c main_v21) (funext fun a => Fin.ext ?_)
  obtain ⟨e20, e21, e30, e31, e40, e41, e50, e51, e60, e61, e70, e71, e80, e81⟩ := idx_const t
  match a with
  | ⟨0, _⟩ => show win1_7.index t (0 : Fin 2) * 1 + 1 * a0.val = a0.val; omega
  | ⟨1, _⟩ => show win1_7.index t (1 : Fin 2) * 128 + 1 * k.val = k.val; omega

/-- The variance row's block is the whole row at every point. -/
theorem blk8_apply (c : Dev nD) (t : Fin cfg1.N) (a0 : Fin 1) (k : Fin 128) :
    iblk1 V c 8 t (ix2 a0 k) = V c main_v25 (ix2 a0 k) := by
  show V c main_v25 (((cfg1.win 8).blk t).view.emb (ix2 a0 k)) = V c main_v25 (ix2 a0 k)
  refine congrArg (V c main_v25) (funext fun a => Fin.ext ?_)
  obtain ⟨e20, e21, e30, e31, e40, e41, e50, e51, e60, e61, e70, e71, e80, e81⟩ := idx_const t
  match a with
  | ⟨0, _⟩ => show win1_8.index t (0 : Fin 2) * 1 + 1 * a0.val = a0.val; omega
  | ⟨1, _⟩ => show win1_8.index t (1 : Fin 2) * 128 + 1 * k.val = k.val; omega

/-- Entry (r, q) of the output's block t sits at row 5000·t + r, column q of the output array. -/
theorem emb9 (t : Fin cfg1.N) (r : Fin 5000) (q : Fin 128) (p : Fin 100000) (hp : p.val = 5000 * t.val + r.val) :
    ((cfg1.win 9).blk t).view.emb (ix2 r q) = (ix2 p q : S100000x128.Idx) := by
  refine funext fun a => Fin.ext ?_
  obtain ⟨-, -, -, -, e0, e1⟩ := idx_facts t
  match a with
  | ⟨0, _⟩ => show win1_9.index t (0 : Fin 2) * 5000 + 1 * r.val = p.val; omega
  | ⟨1, _⟩ => show win1_9.index t (1 : Fin 2) * 128 + 1 * q.val = q.val; omega

/-- What point t writes back is block t of G. -/
theorem flushed_eq (c : Dev nD) (t : Fin cfg1.N) :
    (dat1 (F := Ideal) V c).flushed 9 t = ((cfg1.win 9).blk t).view.read (Elt Ideal) (G V c) := by
  show (cfg1.win 9).cut (grid1.coords t) ((dat1 (F := Ideal) V c).after 9 t) = _
  rw [after1_9]
  unfold out1_9
  rw [View.canon_unit_zero hz]
  simp only [View.ld_unit_zero (S := S5000x128) hz, View.ld_unit_zero (S := S1x128) hz, View.ld_unit_zero (S := S128x128) hz]
  funext j
  obtain ⟨r, q, rfl⟩ : ∃ (r : Fin 5000) (q : Fin 128), j = ix2 r q := ⟨j 0, j 1, eq_ix2 j⟩
  have hN : cfg1.N = 20 := N_1
  have ht : t.val < 20 := hN ▸ t.isLt
  have hr : r.val < 5000 := r.isLt
  let p : Fin 100000 := ⟨5000 * t.val + r.val, by omega⟩
  have hp : p.val = 5000 * t.val + r.val := rfl
  show k1_pay1 (F := Ideal) (iblk1 V c 0 t) (iblk1 V c 2 t) (iblk1 V c 1 t) (iblk1 V c 3 t) (iblk1 V c 4 t) (iblk1 V c 8 t)
        (iblk1 V c 7 t) (iblk1 V c 5 t) (iblk1 V c 6 t) (ix2 r q) = G V c (((cfg1.win 9).blk t).view.emb (ix2 r q))
  rw [emb9 t r q p hp]
  refine (pay_apply (iblk1 V c 0 t) (iblk1 V c 1 t) (iblk1 V c 2 t) (iblk1 V c 3 t) (iblk1 V c 4 t) (iblk1 V c 5 t)
    (iblk1 V c 6 t) (iblk1 V c 7 t) (iblk1 V c 8 t) r q).trans ?_
  have h0 : ∀ k, iblk1 V c 0 t (ix2 r k) = V c main_v9 (ix2 p k) := fun k => blk0_apply V c t r k p hp
  have h1 : ∀ k, iblk1 V c 1 t (ix2 r k) = V c main_arg0 (ix2 p k) := fun k => blk1_apply V c t r k p hp
  have h2 : ∀ k, iblk1 V c 2 t (ix2 0 k) = V c main_v12 (ix2 0 k) := fun k => blk2_apply V c t 0 k
  have h3 : ∀ k, iblk1 V c 3 t (ix2 k q) = V c main_arg3 (ix2 k q) := fun k => blk3_apply V c t k q
  simp only [h0, h1, h2, h3, blk4_apply V c t 0 q, blk5_apply V c t 0 q, blk6_apply V c t 0 q, blk7_apply V c t 0 q, blk8_apply V c t 0 q]
  rfl

/-- An index of the output array is in point t's block iff, on each axis, it lies in the block's range. -/
theorem mem_blk (t : Fin cfg1.N) (i : S100000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v26).slice (win1_9.rect t)).set ↔ _
  rw [View.set_slice_whole, Rect.mem_set_unit]
  exact Iff.rfl

/-- Row p of the output lies in the block of point p / 5000, and every point writes its block back. -/
theorem cover (i : S100000x128.Idx) :
    ∃ t : Fin cfg1.N, (cfg1.win 9).flush t = true ∧ i ∈ ((cfg1.win 9).blk t).view.set := by
  have hN : cfg1.N = 20 := N_1
  have hi0 : (i 0).val < 100000 := (i 0).isLt
  have hi1 : (i 1).val < 128 := (i 1).isLt
  have hlt : (i 0).val / 5000 < cfg1.N := by rw [hN]; omega
  refine ⟨⟨(i 0).val / 5000, hlt⟩, flush1_9 _, ?_⟩
  rw [mem_blk]
  obtain ⟨-, -, -, -, e0, e1⟩ := idx_facts ⟨(i 0).val / 5000, hlt⟩
  have e0' : win1_9.index ⟨(i 0).val / 5000, hlt⟩ (0 : Fin 2) = (i 0).val / 5000 := e0
  intro a
  match a with
  | ⟨0, _⟩ => show win1_9.index ⟨(i 0).val / 5000, hlt⟩ (0 : Fin 2) * 5000 ≤ (i 0).val ∧ (i 0).val < win1_9.index ⟨(i 0).val / 5000, hlt⟩ (0 : Fin 2) * 5000 + 5000; omega
  | ⟨1, _⟩ => show win1_9.index ⟨(i 0).val / 5000, hlt⟩ (1 : Fin 2) * 128 ≤ (i 1).val ∧ (i 1).val < win1_9.index ⟨(i 0).val / 5000, hlt⟩ (1 : Fin 2) * 128 + 128; omega

/-- The output array after the region is G. -/
theorem final (c : Dev nD) : (dat1 (F := Ideal) V c).arrAt 9 cfg1.N = G V c :=
  (dat1 (F := Ideal) V c).arrAt_eq_of_cover 9 (G V c) (fun t _ => flushed_eq V c t) cover

/-- Region 1 (the first layer's normalisation): the output array holds, at row p and column q, the normalised,
    scaled, shifted and clamped y = xin W + b, with the mean and the variance it is handed in its eighth and
    ninth arrays. -/
theorem out_apply (c : Dev nD) (p : Fin 100000) (q : Fin 128) :
    mat ((dat1 (F := Ideal) V c).arrAt 9 cfg1.N) p q
      = bn (lin (xin (V c main_v9) (V c main_arg0) (row (V c main_v12))) (mat (V c main_arg3)) (row (V c main_v13)) p q)
          (row (V c main_v21) q) (row (V c main_v25) q) (row (V c main_v14) q) (row (V c main_v15) q) := by
  show (dat1 (F := Ideal) V c).arrAt 9 cfg1.N (ix2 p q) = _
  rw [final V c]
  rfl

end Cert.KernelIdeal.K1

end
-- ==== Proof.K2.lean ====
import proofs.«151981_j22643067584730_1_alg».proof.Proof.Gen.KernelIdeal.Frame
import proofs.«151981_j22643067584730_1_alg».proof.Proof.Spec
import proofs.«151981_j22643067584730_1_alg».proof.Proof.Shapes
import proofs.«151981_j22643067584730_1_alg».proof.Proof.LibPlainDot
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.K2

open Cert.KernelIdeal Cert.KernelIdeal.Gen Cert.Bn

theorem hz : (![0, 0] : Fin 2 → Nat) = fun _ => 0 := funext fun a => by fin_cases a <;> rfl

/-! ## What one grid point leaves in the two accumulators

At every point after the first the body adds, to what the accumulators held, this block's column sums. -/

theorem outB3 (c : Dev nD) (i : grid2.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond2_0 i) (x0 : Vec Ideal S5000x128 .f32) (x1 : Vec Ideal S128x128 .f32) (x2 : Vec Ideal S1x128 .f32)
    (xo3 xo4 : Vec Ideal S1x128 .f32) :
    out2_B_3 c i a1 h1 a2 h2 a3 h3 a4 h4 a5 h5 hc x0 x1 x2 xo3 xo4 = k2_pay4 x0 x1 x2 xo3 := by
  unfold out2_B_3
  rw [View.read_writes_eq_canon _ _ _ (cover2_B_3 c i a1 h1 a2 h2 a3 h3 a4 h4 a5 h5 hc x0 x1 x2 xo3 xo4)]
  unfold kernelRun2_B
  dsimp only
  sl_unfold_words
  rw [View.canon_unit_zero hz]
  simp only [View.readAt_eq_ld, h1.read_unread, h2.read_unread, h3.read_unread, h4.read_unread,
    View.ld_unit_zero (S := S5000x128) hz, View.ld_unit_zero (S := S128x128) hz, View.ld_unit_zero (S := S1x128) hz]

theorem outB4 (c : Dev nD) (i : grid2.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond2_0 i) (x0 : Vec Ideal S5000x128 .f32) (x1 : Vec Ideal S128x128 .f32) (x2 : Vec Ideal S1x128 .f32)
    (xo3 xo4 : Vec Ideal S1x128 .f32) :
    out2_B_4 c i a1 h1 a2 h2 a3 h3 a4 h4 a5 h5 hc x0 x1 x2 xo3 xo4 = k2_pay5 x0 x1 x2 xo4 := by
  unfold out2_B_4
  rw [View.read_writes_eq_canon _ _ _ (cover2_B_4 c i a1 h1 a2 h2 a3 h3 a4 h4 a5 h5 hc x0 x1 x2 xo3 xo4)]
  unfold kernelRun2_B
  dsimp only
  sl_unfold_words
  rw [View.canon_unit_zero hz]
  simp only [View.readAt_eq_ld, h1.read_unread, h2.read_unread, h3.read_unread, h5.read_unread,
    View.ld_unit_zero (S := S5000x128) hz, View.ld_unit_zero (S := S128x128) hz, View.ld_unit_zero (S := S1x128) hz]

/-- At the first point the body first stores the zero row, reads it back, and adds the block's column sums to it. -/
theorem outA3 (c : Dev nD) (i : grid2.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond2_0 i) (x0 : Vec Ideal S5000x128 .f32) (x1 : Vec Ideal S128x128 .f32) (x2 : Vec Ideal S1x128 .f32) :
    out2_A_3 c i a1 h1 a2 h2 a3 h3 a4 h4 a5 h5 hc x0 x1 x2 = k2_pay4 x0 x1 x2 (k2_pay1 (F := Ideal)) := by
  unfold out2_A_3
  rw [View.read_writes_eq_canon _ _ _ (cover2_A_3 c i a1 h1 a2 h2 a3 h3 a4 h4 a5 h5 hc x0 x1 x2)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S128x128) hz, View.ld_unit_zero (S := S1x128) hz]

theorem outA4 (c : Dev nD) (i : grid2.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond2_0 i) (x0 : Vec Ideal S5000x128 .f32) (x1 : Vec Ideal S128x128 .f32) (x2 : Vec Ideal S1x128 .f32) :
    out2_A_4 c i a1 h1 a2 h2 a3 h3 a4 h4 a5 h5 hc x0 x1 x2 = k2_pay5 x0 x1 x2 (k2_pay2 (F := Ideal)) := by
  unfold out2_A_4
  rw [View.read_writes_eq_canon _ _ _ (cover2_A_4 c i a1 h1 a2 h2 a3 h3 a4 h4 a5 h5 hc x0 x1 x2)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S128x128) hz, View.ld_unit_zero (S := S1x128) hz]

/-! ## The body's arithmetic at a column

Row r of a block, times the weight's column q, plus the bias at q. -/

/-- y at row r, column q of a block: the matrix product's entry plus the bias. -/
def yb (x0 : Vec Ideal S5000x128 .f32) (x1 : Vec Ideal S128x128 .f32) (x2 : Vec Ideal S1x128 .f32)
    (r : Fin 5000) (q : Fin 128) : EReal :=
  (∑ k : Fin 128, x0 (ix2 r k) * x1 (ix2 k q)) + x2 (ix2 0 q)

theorem pay3_apply (x0 : Vec Ideal S5000x128 .f32) (x1 : Vec Ideal S128x128 .f32) (x2 : Vec Ideal S1x128 .f32)
    (r : Fin 5000) (q : Fin 128) : k2_pay3 x0 x1 x2 (ix2 r q) = yb x0 x1 x2 r q := by
  unfold k2_pay3 yb
  rw [shapeCast_self, shapeCast_self]
  refine congrArg₂ (· + ·) ?_ ?_
  · exact PlainDot.matmul_zero_apply 5000 128 128 none _ _ (ix2 r q)
  · exact broadcastTo_1b_ab_apply x2 _ r q

/-- The sum down the rows of a block, read at column q. -/
theorem colsum_apply (src : FVec Ideal S5000x128 .f32) (q : Fin 128) :
    multiReduction (F := Ideal) .add [0] S128 src 0x00000000#32 reduces_S5000x128_S128 (.inl rfl) rfl (ix1 q)
      = ∑ r : Fin 5000, src (ix2 r q) := by
  refine (Ideal.multiReduction_add_single src 0x00000000#32 reduces_S5000x128_S128 (.inl rfl) rfl (ix1 q)).trans ?_
  show ∑ r : Fin 5000, src (reduces_S5000x128_S128.lift (ix1 q) r) = _
  refine Finset.sum_congr rfl fun r _ => congrArg src ?_
  funext a
  apply Fin.ext
  match a with
  | ⟨0, _⟩ => rfl
  | ⟨1, _⟩ => rfl

theorem pay4_apply (x0 : Vec Ideal S5000x128 .f32) (x1 : Vec Ideal S128x128 .f32) (x2 : Vec Ideal S1x128 .f32)
    (acc : Vec Ideal S1x128 .f32) (q : Fin 128) :
    k2_pay4 x0 x1 x2 acc (ix2 0 q) = acc (ix2 0 q) + ∑ r : Fin 5000, yb x0 x1 x2 r q := by
  unfold k2_pay4
  rw [shapeCast_self]
  refine congrArg₂ (· + ·) rfl ?_
  refine (shapeCast_a_1a_apply _ _ 0 q).trans ?_
  refine (colsum_apply _ q).trans ?_
  exact Finset.sum_congr rfl fun r _ => pay3_apply x0 x1 x2 r q

theorem pay5_apply (x0 : Vec Ideal S5000x128 .f32) (x1 : Vec Ideal S128x128 .f32) (x2 : Vec Ideal S1x128 .f32)
    (acc : Vec Ideal S1x128 .f32) (q : Fin 128) :
    k2_pay5 x0 x1 x2 acc (ix2 0 q) = acc (ix2 0 q) + ∑ r : Fin 5000, yb x0 x1 x2 r q * yb x0 x1 x2 r q := by
  unfold k2_pay5
  rw [shapeCast_self]
  refine congrArg₂ (· + ·) rfl ?_
  refine (shapeCast_a_1a_apply _ _ 0 q).trans ?_
  refine (colsum_apply _ q).trans ?_
  refine Finset.sum_congr rfl fun r _ => ?_
  show k2_pay3 x0 x1 x2 (ix2 r q) * k2_pay3 x0 x1 x2 (ix2 r q) = _
  rw [pay3_apply]

/-- The row the first point stores before it adds is the zero literal. -/
theorem pay1_apply (q : Fin 128) : (k2_pay1 (F := Ideal)) (ix2 0 q) = cZ := rfl
theorem pay2_apply (q : Fin 128) : (k2_pay2 (F := Ideal)) (ix2 0 q) = cZ := rfl

variable (V : (c : Dev nD) → (b : Ref sig .tc) → Buf (Elt Ideal) ((c : Thread nD τ).loc b))

/-! ## The blocks the body is given at a grid point

Point t is given rows 5000·t … 5000·t + 4999 of x, and the whole of the weight and of the bias row. -/

abbrev xb (c : Dev nD) (t : Fin cfg2.N) : Vec Ideal S5000x128 .f32 := iblk2 V c 0 t
abbrev wb (c : Dev nD) (t : Fin cfg2.N) : Vec Ideal S128x128 .f32 := iblk2 V c 1 t
abbrev bb (c : Dev nD) (t : Fin cfg2.N) : Vec Ideal S1x128 .f32 := iblk2 V c 2 t

/-- The block indices of the five windows, over the whole grid: the first window's row-block index is the point's
    number, every other index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem blk0_apply (c : Dev nD) (t : Fin cfg2.N) (r : Fin 5000) (k : Fin 128) (h : 5000 * t.val + r.val < 100000) :
    xb V c t (ix2 r k) = mat (V c main_v26) ⟨5000 * t.val + r.val, h⟩ k := by
  unfold mat
  show V c main_v26 (((cfg2.win 0).blk t).view.emb (ix2 r k)) = V c main_v26 (ix2 ⟨5000 * t.val + r.val, h⟩ k)
  congr 1
  funext a
  apply Fin.ext
  obtain ⟨e0, e1, -⟩ := idx_facts t
  match a with
  | ⟨0, _⟩ => show win2_0.index t (0 : Fin 2) * 5000 + 1 * r.val = 5000 * t.val + r.val; rw [e0]; omega
  | ⟨1, _⟩ => show win2_0.index t (1 : Fin 2) * 128 + 1 * k.val = k.val; rw [e1]; omega

theorem blk1_apply (c : Dev nD) (t : Fin cfg2.N) (k q : Fin 128) :
    wb V c t (ix2 k q) = mat (V c main_arg7) k q := by
  unfold mat
  show V c main_arg7 (((cfg2.win 1).blk t).view.emb (ix2 k q)) = V c main_arg7 (ix2 k q)
  congr 1
  funext a
  apply Fin.ext
  obtain ⟨-, -, e0, e1, -⟩ := idx_facts t
  match a with
  | ⟨0, _⟩ => show win2_1.index t (0 : Fin 2) * 128 + 1 * k.val = k.val; rw [e0]; omega
  | ⟨1, _⟩ => show win2_1.index t (1 : Fin 2) * 128 + 1 * q.val = q.val; rw [e1]; omega

theorem blk2_apply (c : Dev nD) (t : Fin cfg2.N) (q : Fin 128) :
    bb V c t (ix2 0 q) = row (V c main_v16) q := by
  unfold row
  show V c main_v16 (((cfg2.win 2).blk t).view.emb (ix2 0 q)) = V c main_v16 (ix2 0 q)
  congr 1
  funext a
  apply Fin.ext
  obtain ⟨-, -, -, -, e0, e1, -⟩ := idx_facts t
  match a with
  | ⟨0, _⟩ => show win2_2.index t (0 : Fin 2) * 1 + 1 * 0 = 0; rw [e0]
  | ⟨1, _⟩ => show win2_2.index t (1 : Fin 2) * 128 + 1 * q.val = q.val; rw [e1]; omega

/-- y = x W + b over the whole array. -/
abbrev Y (c : Dev nD) : Fin 100000 → Fin 128 → EReal :=
  lin (mat (V c main_v26)) (mat (V c main_arg7)) (row (V c main_v16))

/-- The body's y at row r of point t's block is y at row 5000·t + r of the array. -/
theorem yb_blk (c : Dev nD) (t : Fin cfg2.N) (r : Fin 5000) (q : Fin 128) (h : 5000 * t.val + r.val < 100000) :
    yb (xb V c t) (wb V c t) (bb V c t) r q = Y V c ⟨5000 * t.val + r.val, h⟩ q := by
  unfold yb Y lin
  refine congrArg₂ (· + ·) (Finset.sum_congr rfl fun k _ => congrArg₂ (· * ·) ?_ ?_) ?_
  · exact blk0_apply V c t r k h
  · exact blk1_apply V c t k q
  · exact blk2_apply V c t q

/-- So a block's column sum of any function of y is that block's share of the sum over all rows. -/
theorem blocksum_eq (g : EReal → EReal) (c : Dev nD) (t : Fin cfg2.N) (q : Fin 128) :
    ∑ r : Fin 5000, g (yb (xb V c t) (wb V c t) (bb V c t) r q) = blockSum (fun p => g (Y V c p q)) t.val := by
  have hN : t.val < 20 := lt_of_lt_of_eq t.isLt (show cfg2.N = 20 from N_2)
  unfold blockSum
  refine Finset.sum_congr rfl fun r _ => ?_
  have h : 5000 * t.val + r.val < 100000 := by have := r.isLt; omega
  rw [dif_pos h, yb_blk V c t r q h]

/-! ## The accumulators after each grid point

After point n the first accumulator holds, in column q, the zero literal plus the column sums of the blocks 0 … n;
the second the same for the squares. By induction on the point. -/

theorem first3 (c : Dev nD) (t : Fin cfg2.N) (h0 : t.val % 20 = 0) (q : Fin 128) :
    (outsAt2 V c t.val t.isLt).1 (ix2 0 q) = cZ + blockSum (fun p => Y V c p q) t.val := by
  rw [outsAt2_A V c t h0]
  dsimp only
  refine (congrFun (outA3 c (grid2.coords t) (ms2_0 t) (hs2_0 t) (ms2_1 t) (hs2_1 t) (ms2_2 t) (hs2_2 t) (ms2_3 t) (hs2_3 t)
    (ms2_4 t) (hs2_4 t) ((hcond2_0 t).mpr h0) (xb V c t) (wb V c t) (bb V c t)) (ix2 0 q)).trans ?_
  rw [pay4_apply, pay1_apply]
  exact congrArg₂ (· + ·) rfl (blocksum_eq V (fun y => y) c t q)

theorem first4 (c : Dev nD) (t : Fin cfg2.N) (h0 : t.val % 20 = 0) (q : Fin 128) :
    (outsAt2 V c t.val t.isLt).2 (ix2 0 q) = cZ + blockSum (fun p => Y V c p q * Y V c p q) t.val := by
  rw [outsAt2_A V c t h0]
  dsimp only
  refine (congrFun (outA4 c (grid2.coords t) (ms2_0 t) (hs2_0 t) (ms2_1 t) (hs2_1 t) (ms2_2 t) (hs2_2 t) (ms2_3 t) (hs2_3 t)
    (ms2_4 t) (hs2_4 t) ((hcond2_0 t).mpr h0) (xb V c t) (wb V c t) (bb V c t)) (ix2 0 q)).trans ?_
  rw [pay5_apply, pay2_apply]
  exact congrArg₂ (· + ·) rfl (blocksum_eq V (fun y => y * y) c t q)

theorem step3 (c : Dev nD) (t : Fin cfg2.N) (h0 : ¬t.val % 20 = 0) (q : Fin 128) :
    (outsAt2 V c t.val t.isLt).1 (ix2 0 q)
      = (outsAt2 V c (t.val - 1) (Nat.lt_of_le_of_lt (Nat.sub_le _ _) t.isLt)).1 (ix2 0 q)
        + blockSum (fun p => Y V c p q) t.val := by
  rw [outsAt2_B V c t h0]
  dsimp only
  refine (congrFun (outB3 c (grid2.coords t) (ms2_0 t) (hs2_0 t) (ms2_1 t) (hs2_1 t) (ms2_2 t) (hs2_2 t) (ms2_3 t) (hs2_3 t)
    (ms2_4 t) (hs2_4 t) (fun h => h0 ((hcond2_0 t).mp h)) (xb V c t) (wb V c t) (bb V c t)
    (outsAt2 V c (t.val - 1) (Nat.lt_of_le_of_lt (Nat.sub_le _ _) t.isLt)).1
    (outsAt2 V c (t.val - 1) (Nat.lt_of_le_of_lt (Nat.sub_le _ _) t.isLt)).2) (ix2 0 q)).trans ?_
  rw [pay4_apply]
  exact congrArg₂ (· + ·) rfl (blocksum_eq V (fun y => y) c t q)

theorem step4 (c : Dev nD) (t : Fin cfg2.N) (h0 : ¬t.val % 20 = 0) (q : Fin 128) :
    (outsAt2 V c t.val t.isLt).2 (ix2 0 q)
      = (outsAt2 V c (t.val - 1) (Nat.lt_of_le_of_lt (Nat.sub_le _ _) t.isLt)).2 (ix2 0 q)
        + blockSum (fun p => Y V c p q * Y V c p q) t.val := by
  rw [outsAt2_B V c t h0]
  dsimp only
  refine (congrFun (outB4 c (grid2.coords t) (ms2_0 t) (hs2_0 t) (ms2_1 t) (hs2_1 t) (ms2_2 t) (hs2_2 t) (ms2_3 t) (hs2_3 t)
    (ms2_4 t) (hs2_4 t) (fun h => h0 ((hcond2_0 t).mp h)) (xb V c t) (wb V c t) (bb V c t)
    (outsAt2 V c (t.val - 1) (Nat.lt_of_le_of_lt (Nat.sub_le _ _) t.isLt)).1
    (outsAt2 V c (t.val - 1) (Nat.lt_of_le_of_lt (Nat.sub_le _ _) t.isLt)).2) (ix2 0 q)).trans ?_
  rw [pay5_apply]
  exact congrArg₂ (· + ·) rfl (blocksum_eq V (fun y => y * y) c t q)

theorem outs_inv (c : Dev nD) : ∀ (n : ℕ) (h : n < cfg2.N) (q : Fin 128),
    (outsAt2 V c n h).1 (ix2 0 q) = cZ + ∑ s ∈ Finset.range (n + 1), blockSum (fun p => Y V c p q) s
    ∧ (outsAt2 V c n h).2 (ix2 0 q) = cZ + ∑ s ∈ Finset.range (n + 1), blockSum (fun p => Y V c p q * Y V c p q) s
  | 0, h, q => by
    rw [Finset.sum_range_one, Finset.sum_range_one]
    exact ⟨first3 V c ⟨0, h⟩ rfl q, first4 V c ⟨0, h⟩ rfl q⟩
  | n + 1, h, q => by
    have h' : n + 1 < 20 := lt_of_lt_of_eq h (show cfg2.N = 20 from N_2)
    have hB : ¬(⟨n + 1, h⟩ : Fin cfg2.N).val % 20 = 0 := by dsimp only; omega
    obtain ⟨i1, i2⟩ := outs_inv c n (Nat.lt_of_succ_lt h) q
    constructor
    · refine (step3 V c ⟨n + 1, h⟩ hB q).trans ?_
      show (outsAt2 V c n _).1 (ix2 0 q) + blockSum _ (n + 1) = _
      rw [i1, Finset.sum_range_succ _ (n + 1), add_assoc]
    · refine (step4 V c ⟨n + 1, h⟩ hB q).trans ?_
      show (outsAt2 V c n _).2 (ix2 0 q) + blockSum _ (n + 1) = _
      rw [i2, Finset.sum_range_succ _ (n + 1), add_assoc]

/-! ## The two result arrays

The output windows' block index never moves and they are written back once, after the last point (point 19); that
one block is the whole [1,128] array, so the arrays end holding what point 19 leaves in the accumulators. -/

theorem lt19 : 19 < cfg2.N := by rw [show cfg2.N = 20 from N_2]; decide

abbrev res3 (c : Dev nD) : Buf (Elt Ideal) ((c : Thread nD τ).loc main_v27_0) := (outsAt2 V c 19 lt19).1
abbrev res4 (c : Dev nD) : Buf (Elt Ideal) ((c : Thread nD τ).loc main_v27_1) := (outsAt2 V c 19 lt19).2

theorem outs_at_19 (c : Dev nD) (t : Fin cfg2.N) (h19 : t.val = 19) :
    outsAt2 V c t.val t.isLt = outsAt2 V c 19 lt19 := by
  obtain ⟨n, hn⟩ := t
  dsimp only at h19
  subst h19
  rfl

/-- The extents of the output windows' blocks, over the grid. -/
theorem xsize_facts : ∀ t : Fin cfg2.N, win2_3.xsize (grid2.coords t) (0 : Fin 2) = 1 ∧ win2_3.xsize (grid2.coords t) (1 : Fin 2) = 128
    ∧ win2_4.xsize (grid2.coords t) (0 : Fin 2) = 1 ∧ win2_4.xsize (grid2.coords t) (1 : Fin 2) = 128 :=
  (by decide +kernel : ∀ t : Fin grid2.N, _)

theorem flushed3_eq (c : Dev nD) (t : Fin cfg2.N) (hf : (cfg2.win 3).flush t = true) :
    (dat2 V c).flushed 3 t = ((cfg2.win 3).blk t).view.read (Elt Ideal) (res3 V c) := by
  have hN : cfg2.N = 20 := N_2
  have h19 : t.val = 19 := by have := (flush2_3 t).mp hf; have := t.isLt; omega
  show (cfg2.win 3).cut (grid2.coords t) ((dat2 V c).after 3 t) = _
  rw [after2_3, outs_at_19 V c t h19]
  obtain ⟨-, -, -, -, -, -, e0, e1, -⟩ := idx_facts t
  have hz' : (fun a => win2_3.index t a * main_v27_0.ty.shape.size a) = fun _ => 0 := funext fun a => by
    match a with
    | ⟨0, _⟩ => show win2_3.index t (0 : Fin 2) * 1 = 0; rw [e0]
    | ⟨1, _⟩ => show win2_3.index t (1 : Fin 2) * 128 = 0; rw [e1]
  exact (Memref.read_access_unit_zero (Elt Ideal) main_v27_0 hz' (fun a => by rw [congrFun hz' a]; simp) (res3 V c)).symm

theorem flushed4_eq (c : Dev nD) (t : Fin cfg2.N) (hf : (cfg2.win 4).flush t = true) :
    (dat2 V c).flushed 4 t = ((cfg2.win 4).blk t).view.read (Elt Ideal) (res4 V c) := by
  have hN : cfg2.N = 20 := N_2
  have h19 : t.val = 19 := by have := (flush2_4 t).mp hf; have := t.isLt; omega
  show (cfg2.win 4).cut (grid2.coords t) ((dat2 V c).after 4 t) = _
  rw [after2_4, outs_at_19 V c t h19]
  obtain ⟨-, -, -, -, -, -, -, -, e0, e1⟩ := idx_facts t
  have hz' : (fun a => win2_4.index t a * main_v27_1.ty.shape.size a) = fun _ => 0 := funext fun a => by
    match a with
    | ⟨0, _⟩ => show win2_4.index t (0 : Fin 2) * 1 = 0; rw [e0]
    | ⟨1, _⟩ => show win2_4.index t (1 : Fin 2) * 128 = 0; rw [e1]
  exact (Memref.read_access_unit_zero (Elt Ideal) main_v27_1 hz' (fun a => by rw [congrFun hz' a]; simp) (res4 V c)).symm

theorem final3 (c : Dev nD) : (dat2 V c).arrAt 3 cfg2.N = res3 V c :=
  (dat2 V c).arrAt_eq_of_cover 3 (res3 V c) (flushed3_eq V c) fun i =>
    ⟨⟨19, lt19⟩, (flush2_3 ⟨19, lt19⟩).mpr rfl, by
      show i ∈ ((View.whole main_v27_0).slice (win2_3.rect ⟨19, lt19⟩)).set
      rw [View.set_slice_whole, Rect.mem_set_unit]
      intro a
      have h0 : (i 0 : Nat) < 1 := (i 0).isLt
      have h1 : (i 1 : Nat) < 128 := (i 1).isLt
      obtain ⟨-, -, -, -, -, -, e0, e1, -⟩ := idx_facts ⟨19, lt19⟩
      obtain ⟨x0, x1, -⟩ := xsize_facts ⟨19, lt19⟩
      match a with
      | ⟨0, _⟩ => show win2_3.index ⟨19, lt19⟩ 0 * win2_3.size 0 ≤ (i 0 : Nat) ∧ (i 0 : Nat) < win2_3.index ⟨19, lt19⟩ 0 * win2_3.size 0 + win2_3.xsize (grid2.coords ⟨19, lt19⟩) 0
                  rw [e0, x0]; omega
      | ⟨1, _⟩ => show win2_3.index ⟨19, lt19⟩ 1 * win2_3.size 1 ≤ (i 1 : Nat) ∧ (i 1 : Nat) < win2_3.index ⟨19, lt19⟩ 1 * win2_3.size 1 + win2_3.xsize (grid2.coords ⟨19, lt19⟩) 1
                  rw [e1, x1]; omega⟩

theorem final4 (c : Dev nD) : (dat2 V c).arrAt 4 cfg2.N = res4 V c :=
  (dat2 V c).arrAt_eq_of_cover 4 (res4 V c) (flushed4_eq V c) fun i =>
    ⟨⟨19, lt19⟩, (flush2_4 ⟨19, lt19⟩).mpr rfl, by
      show i ∈ ((View.whole main_v27_1).slice (win2_4.rect ⟨19, lt19⟩)).set
      rw [View.set_slice_whole, Rect.mem_set_unit]
      intro a
      have h0 : (i 0 : Nat) < 1 := (i 0).isLt
      have h1 : (i 1 : Nat) < 128 := (i 1).isLt
      obtain ⟨-, -, -, -, -, -, -, -, e0, e1⟩ := idx_facts ⟨19, lt19⟩
      obtain ⟨-, -, x0, x1⟩ := xsize_facts ⟨19, lt19⟩
      match a with
      | ⟨0, _⟩ => show win2_4.index ⟨19, lt19⟩ 0 * win2_4.size 0 ≤ (i 0 : Nat) ∧ (i 0 : Nat) < win2_4.index ⟨19, lt19⟩ 0 * win2_4.size 0 + win2_4.xsize (grid2.coords ⟨19, lt19⟩) 0
                  rw [e0, x0]; omega
      | ⟨1, _⟩ => show win2_4.index ⟨19, lt19⟩ 1 * win2_4.size 1 ≤ (i 1 : Nat) ∧ (i 1 : Nat) < win2_4.index ⟨19, lt19⟩ 1 * win2_4.size 1 + win2_4.xsize (grid2.coords ⟨19, lt19⟩) 1
                  rw [e1, x1]; omega⟩

/-- Region 2 (the second layer's statistics): after the last grid point the first output array holds, in column q,
    the zero literal plus the sum over all 100000 rows of y = x W + b; -/
theorem sum_apply (c : Dev nD) (q : Fin 128) :
    row ((dat2 (F := Ideal) V c).arrAt 3 cfg2.N) q
      = s1 (lin (mat (V c main_v26)) (mat (V c main_arg7)) (row (V c main_v16))) q := by
  rw [final3 V c]
  show res3 V c (ix2 0 q) = cZ + ∑ p : Fin 100000, Y V c p q
  rw [← sum_blocks (fun p => Y V c p q)]
  exact (outs_inv V c 19 lt19 q).1

/-- and the second output array the zero literal plus the sum of the squares. -/
theorem sumsq_apply (c : Dev nD) (q : Fin 128) :
    row ((dat2 (F := Ideal) V c).arrAt 4 cfg2.N) q
      = s2 (lin (mat (V c main_v26)) (mat (V c main_arg7)) (row (V c main_v16))) q := by
  rw [final4 V c]
  show res4 V c (ix2 0 q) = cZ + ∑ p : Fin 100000, Y V c p q * Y V c p q
  rw [← sum_blocks (fun p => Y V c p q * Y V c p q)]
  exact (outs_inv V c 19 lt19 q).2

end Cert.KernelIdeal.K2

end
-- ==== Proof.K3.lean ====
import proofs.«151981_j22643067584730_1_alg».proof.Proof.Gen.KernelIdeal.Frame
import proofs.«151981_j22643067584730_1_alg».proof.Proof.Spec
import proofs.«151981_j22643067584730_1_alg».proof.Proof.Shapes
import proofs.«151981_j22643067584730_1_alg».proof.Proof.LibPlainDot
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.K3

open Cert.KernelIdeal Cert.KernelIdeal.Gen Cert.Bn

variable (V : (c : Dev nD) → (b : Ref sig .tc) → Buf (Elt Ideal) ((c : Thread nD τ).loc b))

/-- A row broadcast down the 5000 rows of a block reads, at (r, q), the row's entry q. -/
theorem bc_row (v : Vec Ideal S1x128 .f32) (r : Fin 5000) (q : Fin 128) :
    broadcastTo S5000x128 (shapeCast S1x128 v shapeCasts_S1x128_S1x128) broadcasts_S1x128_S5000x128 (ix2 r q)
      = v (ix2 0 q) := by
  rw [shapeCast_self]
  exact broadcastTo_1b_ab_apply v broadcasts_S1x128_S5000x128 r q

/-- The block's matrix product at (r, q): row r of the block against column q of the weights. -/
theorem mm_apply (x : Vec Ideal S5000x128 .f32) (w : Vec Ideal S128x128 .f32) (r : Fin 5000) (q : Fin 128) :
    matmul (F := Ideal) dot_S5000x128_S128x128_S5000x128_1_0_0_1_n_n none
        (truncf .bf16 (shapeCast S5000x128 x shapeCasts_S5000x128_S5000x128) bitsLt_bf16_f32)
        (truncf .bf16 w bitsLt_bf16_f32) (constant S5000x128 .f32 0x00000000#32) (ix2 r q)
      = ∑ k : Fin 128, x (ix2 r k) * w (ix2 k q) := by
  rw [shapeCast_self]
  exact PlainDot.matmul_zero_apply 5000 128 128 none _ _ (ix2 r q)

/-- The reciprocal root of (row + constant), broadcast down the block, read at (r, q). -/
theorem bc_rsqrt (v : Vec Ideal S1x128 .f32) (e : Ideal .f32) (r : Fin 5000) (q : Fin 128) :
    broadcastTo S5000x128 (rsqrt (addf (shapeCast S1x128 v shapeCasts_S1x128_S1x128) (broadcast S1x128 e)))
        broadcasts_S1x128_S5000x128 (ix2 r q)
      = Ideal.rsqrt (v (ix2 0 q) + e) := by
  rw [shapeCast_self]
  exact broadcastTo_1b_ab_apply _ broadcasts_S1x128_S5000x128 r q
theorem pay_apply (x : Vec Ideal S5000x128 .f32) (w : Vec Ideal S128x128 .f32) (b vr mu g be : Vec Ideal S1x128 .f32)
    (r : Fin 5000) (q : Fin 128) :
    k3_pay1 (F := Ideal) x w b vr mu g be (ix2 r q)
      = bn ((∑ k : Fin 128, x (ix2 r k) * w (ix2 k q)) + b (ix2 0 q)) (mu (ix2 0 q)) (vr (ix2 0 q)) (g (ix2 0 q)) (be (ix2 0 q)) := by
  unfold k3_pay1 bn cZ cE
  simp only [maximumf_apply, addf_apply, mulf_apply, subf_apply, broadcast_apply, mm_apply]
  rw [bc_row b r q, bc_row mu r q, bc_row g r q, bc_row be r q, bc_rsqrt vr _ r q]
  rfl

/-- The origin of a rank-two block, as the constant-zero offset. -/
theorem hz : (![0, 0] : Fin 2 → Nat) = fun _ => 0 := funext fun a => by fin_cases a <;> rfl

/-- What the body leaves in the output's staging buffer, at (r, q), from the seven input blocks. -/
theorem out_blk_apply (x0 : Vec Ideal S5000x128 .f32) (x1 : Vec Ideal S128x128 .f32) (x2 x3 x4 x5 x6 : Vec Ideal S1x128 .f32)
    (r : Fin 5000) (q : Fin 128) :
    out3_7 (F := Ideal) x0 x1 x2 x3 x4 x5 x6 (ix2 r q)
      = bn ((∑ k : Fin 128, x0 (ix2 r k) * x1 (ix2 k q)) + x2 (ix2 0 q)) (x5 (ix2 0 q)) (x6 (ix2 0 q)) (x3 (ix2 0 q)) (x4 (ix2 0 q)) := by
  unfold out3_7
  rw [View.canon_unit_zero hz]
  simp only [View.ld_unit_zero (S := S5000x128) hz, View.ld_unit_zero (S := S128x128) hz, View.ld_unit_zero (S := S1x128) hz]
  exact pay_apply x0 x1 x2 x6 x5 x3 x4 r q

/-- The windows' index maps at each of the twenty grid points: the two row-blocked windows sit at block (t, 0),
    the others at block (0, 0). -/
theorem idx_facts : ∀ t : Fin cfg3.N,
    win3_0.index t (0 : Fin 2) = t.val ∧ win3_0.index t (1 : Fin 2) = 0
    ∧ win3_7.index t (0 : Fin 2) = t.val ∧ win3_7.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- The seven input blocks at grid point t, named at their literal shapes. -/
abbrev xb (c : Dev nD) (t : Fin cfg3.N) : Vec Ideal S5000x128 .f32 := iblk3 (F := Ideal) V c 0 t
abbrev wb (c : Dev nD) (t : Fin cfg3.N) : Vec Ideal S128x128 .f32 := iblk3 (F := Ideal) V c 1 t
abbrev bb (c : Dev nD) (t : Fin cfg3.N) : Vec Ideal S1x128 .f32 := iblk3 (F := Ideal) V c 2 t
abbrev gb (c : Dev nD) (t : Fin cfg3.N) : Vec Ideal S1x128 .f32 := iblk3 (F := Ideal) V c 3 t
abbrev eb (c : Dev nD) (t : Fin cfg3.N) : Vec Ideal S1x128 .f32 := iblk3 (F := Ideal) V c 4 t
abbrev mb (c : Dev nD) (t : Fin cfg3.N) : Vec Ideal S1x128 .f32 := iblk3 (F := Ideal) V c 5 t
abbrev vb (c : Dev nD) (t : Fin cfg3.N) : Vec Ideal S1x128 .f32 := iblk3 (F := Ideal) V c 6 t

/-- Row r of the x block at point t is row 5000·t + r of the x array. -/
theorem xb_apply (c : Dev nD) (t : Fin cfg3.N) (r : Fin 5000) (k : Fin 128) (h : 5000 * t.val + r.val < 100000) :
    xb V c t (ix2 r k) = mat (V c main_v26) ⟨5000 * t.val + r.val, h⟩ k := by
  show V c main_v26 (((cfg3.win 0).blk t).view.emb (ix2 r k)) = V c main_v26 (ix2 ⟨5000 * t.val + r.val, h⟩ k)
  have h0 : ((cfg3.win 0).blk t).view.emb (ix2 r k) = ix2 ⟨5000 * t.val + r.val, h⟩ k := by
    funext a; apply Fin.ext
    obtain ⟨e00, e01, -⟩ := idx_facts t
    match a with
    | ⟨0, _⟩ => show win3_0.index t (0 : Fin 2) * 5000 + 1 * r.val = 5000 * t.val + r.val; omega
    | ⟨1, _⟩ => show win3_0.index t (1 : Fin 2) * 128 + 1 * k.val = k.val; omega
  rw [h0]

/-- The weights' block is the whole weight matrix at every point. -/
theorem wb_apply (c : Dev nD) (t : Fin cfg3.N) (k q : Fin 128) :
    wb V c t (ix2 k q) = mat (V c main_arg7) k q := by
  show V c main_arg7 (((cfg3.win 1).blk t).view.emb (ix2 k q)) = V c main_arg7 (ix2 k q)
  have h0 : ((cfg3.win 1).blk t).view.emb (ix2 k q) = ix2 k q := by
    funext a; apply Fin.ext
    obtain ⟨-, -, -, -, e10, e11, -⟩ := idx_facts t
    match a with
    | ⟨0, _⟩ => show win3_1.index t (0 : Fin 2) * 128 + 1 * k.val = k.val; omega
    | ⟨1, _⟩ => show win3_1.index t (1 : Fin 2) * 128 + 1 * q.val = q.val; omega
  rw [h0]

theorem bb_apply (c : Dev nD) (t : Fin cfg3.N) (q : Fin 128) :
    bb V c t (ix2 0 q) = row (V c main_v16) q := by
  show V c main_v16 (((cfg3.win 2).blk t).view.emb (ix2 (0 : Fin 1) q)) = V c main_v16 (ix2 (0 : Fin 1) q)
  have h0 : ((cfg3.win 2).blk t).view.emb (ix2 (0 : Fin 1) q) = ix2 (0 : Fin 1) q := by
    funext a; apply Fin.ext
    obtain ⟨-, -, -, -, e10, e11, e20, e21, e30, e31, e40, e41, e50, e51, e60, e61⟩ := idx_facts t
    match a with
    | ⟨0, _⟩ => show win3_2.index t (0 : Fin 2) * 1 + 1 * (0 : Fin 1).val = (0 : Fin 1).val; simp only [e20]; rfl
    | ⟨1, _⟩ => show win3_2.index t (1 : Fin 2) * 128 + 1 * q.val = q.val; omega
  rw [h0]

theorem gb_apply (c : Dev nD) (t : Fin cfg3.N) (q : Fin 128) :
    gb V c t (ix2 0 q) = row (V c main_v17) q := by
  show V c main_v17 (((cfg3.win 3).blk t).view.emb (ix2 (0 : Fin 1) q)) = V c main_v17 (ix2 (0 : Fin 1) q)
  have h0 : ((cfg3.win 3).blk t).view.emb (ix2 (0 : Fin 1) q) = ix2 (0 : Fin 1) q := by
    funext a; apply Fin.ext
    obtain ⟨-, -, -, -, e10, e11, e20, e21, e30, e31, e40, e41, e50, e51, e60, e61⟩ := idx_facts t
    match a with
    | ⟨0, _⟩ => show win3_3.index t (0 : Fin 2) * 1 + 1 * (0 : Fin 1).val = (0 : Fin 1).val; simp only [e30]; rfl
    | ⟨1, _⟩ => show win3_3.index t (1 : Fin 2) * 128 + 1 * q.val = q.val; omega
  rw [h0]

theorem eb_apply (c : Dev nD) (t : Fin cfg3.N) (q : Fin 128) :
    eb V c t (ix2 0 q) = row (V c main_v18) q := by
  show V c main_v18 (((cfg3.win 4).blk t).view.emb (ix2 (0 : Fin 1) q)) = V c main_v18 (ix2 (0 : Fin 1) q)
  have h0 : ((cfg3.win 4).blk t).view.emb (ix2 (0 : Fin 1) q) = ix2 (0 : Fin 1) q := by
    funext a; apply Fin.ext
    obtain ⟨-, -, -, -, e10, e11, e20, e21, e30, e31, e40, e41, e50, e51, e60, e61⟩ := idx_facts t
    match a with
    | ⟨0, _⟩ => show win3_4.index t (0 : Fin 2) * 1 + 1 * (0 : Fin 1).val = (0 : Fin 1).val; simp only [e40]; rfl
    | ⟨1, _⟩ => show win3_4.index t (1 : Fin 2) * 128 + 1 * q.val = q.val; omega
  rw [h0]

theorem mb_apply (c : Dev nD) (t : Fin cfg3.N) (q : Fin 128) :
    mb V c t (ix2 0 q) = row (V c main_v29) q := by
  show V c main_v29 (((cfg3.win 5).blk t).view.emb (ix2 (0 : Fin 1) q)) = V c main_v29 (ix2 (0 : Fin 1) q)
  have h0 : ((cfg3.win 5).blk t).view.emb (ix2 (0 : Fin 1) q) = ix2 (0 : Fin 1) q := by
    funext a; apply Fin.ext
    obtain ⟨-, -, -, -, e10, e11, e20, e21, e30, e31, e40, e41, e50, e51, e60, e61⟩ := idx_facts t
    match a with
    | ⟨0, _⟩ => show win3_5.index t (0 : Fin 2) * 1 + 1 * (0 : Fin 1).val = (0 : Fin 1).val; simp only [e50]; rfl
    | ⟨1, _⟩ => show win3_5.index t (1 : Fin 2) * 128 + 1 * q.val = q.val; omega
  rw [h0]

theorem vb_apply (c : Dev nD) (t : Fin cfg3.N) (q : Fin 128) :
    vb V c t (ix2 0 q) = row (V c main_v33) q := by
  show V c main_v33 (((cfg3.win 6).blk t).view.emb (ix2 (0 : Fin 1) q)) = V c main_v33 (ix2 (0 : Fin 1) q)
  have h0 : ((cfg3.win 6).blk t).view.emb (ix2 (0 : Fin 1) q) = ix2 (0 : Fin 1) q := by
    funext a; apply Fin.ext
    obtain ⟨-, -, -, -, e10, e11, e20, e21, e30, e31, e40, e41, e50, e51, e60, e61⟩ := idx_facts t
    match a with
    | ⟨0, _⟩ => show win3_6.index t (0 : Fin 2) * 1 + 1 * (0 : Fin 1).val = (0 : Fin 1).val; simp only [e60]; rfl
    | ⟨1, _⟩ => show win3_6.index t (1 : Fin 2) * 128 + 1 * q.val = q.val; omega
  rw [h0]

/-- The output array as one function of the region's input arrays, index by index. -/
def G (c : Dev nD) : S100000x128.Idx → EReal := fun i =>
  bn (lin (mat (V c main_v26)) (mat (V c main_arg7)) (row (V c main_v16)) (i 0) (i 1))
    (row (V c main_v29) (i 1)) (row (V c main_v33) (i 1)) (row (V c main_v17) (i 1)) (row (V c main_v18) (i 1))

/-- What point t writes back is block t of G. -/
theorem flushed_eq (c : Dev nD) (t : Fin cfg3.N) :
    (dat3 (F := Ideal) V c).flushed 7 t = ((cfg3.win 7).blk t).view.read (Elt Ideal) (G V c) := by
  show (cfg3.win 7).cut (grid3.coords t) ((dat3 (F := Ideal) V c).after 7 t) = _
  rw [after3_7]
  funext j
  obtain ⟨r, q, rfl⟩ : ∃ (r : Fin 5000) (q : Fin 128), j = ix2 r q := ⟨j 0, j 1, eq_ix2 j⟩
  have ht : t.val < 20 := lt_of_lt_of_eq t.isLt N_3
  have hr : 5000 * t.val + r.val < 100000 := by have := r.isLt; omega
  refine (out_blk_apply (xb V c t) (wb V c t) (bb V c t) (gb V c t) (eb V c t) (mb V c t) (vb V c t) r q).trans ?_
  show _ = G V c (((cfg3.win 7).blk t).view.emb (ix2 r q))
  have h7 : ((cfg3.win 7).blk t).view.emb (ix2 r q) = ix2 ⟨5000 * t.val + r.val, hr⟩ q := by
    funext a; apply Fin.ext
    obtain ⟨-, -, e70, e71, -⟩ := idx_facts t
    match a with
    | ⟨0, _⟩ => show win3_7.index t (0 : Fin 2) * 5000 + 1 * r.val = 5000 * t.val + r.val; omega
    | ⟨1, _⟩ => show win3_7.index t (1 : Fin 2) * 128 + 1 * q.val = q.val; omega
  rw [h7, bb_apply, gb_apply, eb_apply, mb_apply, vb_apply]
  simp only [xb_apply V c t r _ hr, wb_apply]
  rfl

/-- An index of the output array lies in point t's block iff each coordinate lies in the block's range. -/
theorem mem_blk (t : Fin cfg3.N) (i : S100000x128.Idx) :
    i ∈ ((cfg3.win 7).blk t).view.set ↔ ∀ a : Fin 2, win3_7.index t a * S5000x128.size a ≤ (i a).val
      ∧ (i a).val < win3_7.index t a * S5000x128.size a + S5000x128.size a := by
  show i ∈ ((View.whole main_v34).slice (win3_7.rect t)).set ↔ _
  rw [View.set_slice_whole, Rect.mem_set_unit]
  exact Iff.rfl

/-- Row p of the output array is written back by grid point p / 5000. -/
theorem cover (i : S100000x128.Idx) :
    ∃ t : Fin cfg3.N, (cfg3.win 7).flush t = true ∧ i ∈ ((cfg3.win 7).blk t).view.set := by
  have hi0 : (i 0).val < 100000 := (i 0).isLt
  have hi1 : (i 1).val < 128 := (i 1).isLt
  obtain ⟨t, ht⟩ : ∃ t : Fin cfg3.N, t.val = (i 0).val / 5000 :=
    ⟨⟨(i 0).val / 5000, lt_of_lt_of_eq (by omega : (i 0).val / 5000 < 20) N_3.symm⟩, rfl⟩
  refine ⟨t, flush3_7 t, ?_⟩
  rw [mem_blk]
  obtain ⟨-, -, e70, e71, -⟩ := idx_facts t
  intro a
  match a with
  | ⟨0, _⟩ =>
    show win3_7.index t (0 : Fin 2) * 5000 ≤ (i 0).val ∧ (i 0).val < win3_7.index t (0 : Fin 2) * 5000 + 5000
    omega
  | ⟨1, _⟩ =>
    show win3_7.index t (1 : Fin 2) * 128 ≤ (i 1).val ∧ (i 1).val < win3_7.index t (1 : Fin 2) * 128 + 128
    omega

/-- The output array after the region's run is G. -/
theorem final (c : Dev nD) : (dat3 (F := Ideal) V c).arrAt 7 cfg3.N = G V c :=
  (dat3 (F := Ideal) V c).arrAt_eq_of_cover 7 (G V c) (fun t _ => flushed_eq V c t) cover

/-- Region 3 (the second layer's normalisation): the output array holds, at row p and column q, the normalised,
    scaled, shifted and clamped y = x W + b, with the mean and the variance it is handed in its sixth and seventh
    arrays. -/
theorem out_apply (c : Dev nD) (p : Fin 100000) (q : Fin 128) :
    mat ((dat3 (F := Ideal) V c).arrAt 7 cfg3.N) p q
      = bn (lin (mat (V c main_v26)) (mat (V c main_arg7)) (row (V c main_v16)) p q)
          (row (V c main_v29) q) (row (V c main_v33) q) (row (V c main_v17) q) (row (V c main_v18) q) := by
  show (dat3 (F := Ideal) V c).arrAt 7 cfg3.N (ix2 p q) = _
  rw [final]
  rfl

end Cert.KernelIdeal.K3

end
-- ==== Proof.KReadsA.lean ====
import proofs.«151981_j22643067584730_1_alg».proof.Proof.Gen.KernelIdeal.Frame
import proofs.«151981_j22643067584730_1_alg».proof.Proof.Spec
import proofs.«151981_j22643067584730_1_alg».proof.Proof.Shapes
import proofs.«151981_j22643067584730_1_alg».proof.Proof.LibPlainDot
import Idealize.ShloMosaic.Lib.Pipeline.Value
import Idealize.ShloMosaic.Lib.ValueLayout
import Idealize.ShloMosaic.PureOps.Ideal.Laws
import Idealize.ShloMosaic.Lib.Tactic
import proofs.«151981_j22643067584730_1_alg».proof.Proof.Pooled
import Idealize.ShloMosaic.Lib.StableHlo.Run
set_option maxRecDepth 16384

noncomputable section

open Idealize.ShloMosaic Idealize.ShloMosaic.TcCoe Idealize.SL.Sem Idealize.ShloMosaic.ValueIdx
open Idealize.ShloMosaic.Pipeline (Dat)

namespace Cert.KernelIdeal.ReadsA

open Cert.KernelIdeal Cert.KernelIdeal.Gen Cert.Bn

variable (m : (ℓ : Loc nD τ sig) → Buf (Elt Ideal) ℓ) (ρ : Dev nD → PrngReg)

/-! What region 0 finds in the buffers the first stretch of host operations wrote (the contents `V1`): the pooled
    features, the scale row, the six parameter vectors as rows, and the arguments untouched. -/

/-- The pooled features: the host's gather and scatter-add of the arguments. -/
theorem V1_v9 (c : Dev nD) :
    V1 (F := Ideal) m ρ c main_v9 = Cert.Pooled.pooled (m ((c.tc : Thread nD τ).loc main_arg0)) (m ((c.tc : Thread nD τ).loc main_arg1)) (m ((c.tc : Thread nD τ).loc main_arg2)) := by
  show StableHlo.after hostOps0 (W0 m ρ c) (Proc.devRef .tc main_v9) = _
  after_results
  -- what is left is the wrapped gather and the scatter-add from zero, operation for operation the named chain
  unfold Cert.Pooled.pooled
  rfl

/-- The scale row holds one + eps in every column. -/
theorem V1_v12 (c : Dev nD) (k : Fin 128) : row (V1 (F := Ideal) m ρ c main_v12) k = cOne + scal (m ((c.tc : Thread nD τ).loc main_arg11)) := by
  show StableHlo.after hostOps0 (W0 m ρ c) (Proc.devRef .tc main_v12) (ix2 0 k) = _
  after_results
  -- the broadcast along both axes of a [1,1] array reads its one entry
  refine (broadcastInDim_apply _ _ _ (ix2 0 k) (ix2 0 0) (fun a => match a with | ⟨0, _⟩ => rfl | ⟨1, _⟩ => rfl)).trans ?_
  -- the [1,1] array is the scalar sum reshaped: both have the one row-major position 0
  refine (shapeCast_apply (addf (constant (F := Ideal) S_ FTy.f32 0x3F800000#32) (m ((c.tc : Thread nD τ).loc main_arg11))) shapeCasts_S_S1x1 (ix2 0 0) ix0 ?_).trans ?_
  · rfl
  -- the scalar sum at its one index is the literal one plus eps
  · rfl

/-- The first bias as a row. -/
theorem V1_v13 (c : Dev nD) (q : Fin 128) : row (V1 (F := Ideal) m ρ c main_v13) q = vec (m ((c.tc : Thread nD τ).loc main_arg4)) q := by
  show StableHlo.after hostOps0 (W0 m ρ c) (Proc.devRef .tc main_v13) (ix2 0 q) = _
  after_results
  -- a vector viewed as a one-row matrix reads, at (0, q), its entry q
  exact shapeCast_a_1a_apply (m ((c.tc : Thread nD τ).loc main_arg4)) shapeCasts_S128_S1x128 0 q

/-- The first scale vector as a row. -/
theorem V1_v14 (c : Dev nD) (q : Fin 128) : row (V1 (F := Ideal) m ρ c main_v14) q = vec (m ((c.tc : Thread nD τ).loc main_arg5)) q := by
  show StableHlo.after hostOps0 (W0 m ρ c) (Proc.devRef .tc main_v14) (ix2 0 q) = _
  after_results
  -- a vector viewed as a one-row matrix reads, at (0, q), its entry q
  exact shapeCast_a_1a_apply (m ((c.tc : Thread nD τ).loc main_arg5)) shapeCasts_S128_S1x128 0 q

/-- The first shift vector as a row. -/
theorem V1_v15 (c : Dev nD) (q : Fin 128) : row (V1 (F := Ideal) m ρ c main_v15) q = vec (m ((c.tc : Thread nD τ).loc main_arg6)) q := by
  show StableHlo.after hostOps0 (W0 m ρ c) (Proc.devRef .tc main_v15) (ix2 0 q) = _
  after_results
  -- a vector viewed as a one-row matrix reads, at (0, q), its entry q
  exact shapeCast_a_1a_apply (m ((c.tc : Thread nD τ).loc main_arg6)) shapeCasts_S128_S1x128 0 q

/-- The second bias as a row. -/
theorem V1_v16 (c : Dev nD) (q : Fin 128) : row (V1 (F := Ideal) m ρ c main_v16) q = vec (m ((c.tc : Thread nD τ).loc main_arg8)) q := by
  show StableHlo.after hostOps0 (W0 m ρ c) (Proc.devRef .tc main_v16) (ix2 0 q) = _
  after_results
  -- a vector viewed as a one-row matrix reads, at (0, q), its entry q
  exact shapeCast_a_1a_apply (m ((c.tc : Thread nD τ).loc main_arg8)) shapeCasts_S128_S1x128 0 q

/-- The second scale vector as a row. -/
theorem V1_v17 (c : Dev nD) (q : Fin 128) : row (V1 (F := Ideal) m ρ c main_v17) q = vec (m ((c.tc : Thread nD τ).loc main_arg9)) q := by
  show StableHlo.after hostOps0 (W0 m ρ c) (Proc.devRef .tc main_v17) (ix2 0 q) = _
  after_results
  -- a vector viewed as a one-row matrix reads, at (0, q), its entry q
  exact shapeCast_a_1a_apply (m ((c.tc : Thread nD τ).loc main_arg9)) shapeCasts_S128_S1x128 0 q

/-- The second shift vector as a row. -/
theorem V1_v18 (c : Dev nD) (q : Fin 128) : row (V1 (F := Ideal) m ρ c main_v18) q = vec (m ((c.tc : Thread nD τ).loc main_arg10)) q := by
  show StableHlo.after hostOps0 (W0 m ρ c) (Proc.devRef .tc main_v18) (ix2 0 q) = _
  after_results
  -- a vector viewed as a one-row matrix reads, at (0, q), its entry q
  exact shapeCast_a_1a_apply (m ((c.tc : Thread nD τ).loc main_arg10)) shapeCasts_S128_S1x128 0 q

/-- The host operations write no argument. -/
theorem V1_arg0 (c : Dev nD) : V1 (F := Ideal) m ρ c main_arg0 = (m ((c.tc : Thread nD τ).loc main_arg0)) := by
  show StableHlo.after hostOps0 (W0 m ρ c) (Proc.devRef .tc main_arg0) = _
  -- none of the operations has this argument as its result, so its contents are the launch memory's
  exact (StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem V1_arg3 (c : Dev nD) : V1 (F := Ideal) m ρ c main_arg3 = (m ((c.tc : Thread nD τ).loc main_arg3)) := by
  show StableHlo.after hostOps0 (W0 m ρ c) (Proc.devRef .tc main_arg3) = _
  -- none of the operations has this argument as its result, so its contents are the launch memory's
  exact (StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem V1_arg7 (c : Dev nD) : V1 (F := Ideal) m ρ c main_arg7 = (m ((c.tc : Thread nD τ).loc main_arg7)) := by
  show StableHlo.after hostOps0 (W0 m ρ c) (Proc.devRef .tc main_arg7) = _
  -- none of the operations has this argument as its result, so its contents are the launch memory's
  exact (StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

end Cert.KernelIdeal.ReadsA

end
-- ==== Proof.KReadsB.lean ====
import proofs.«151981_j22643067584730_1_alg».proof.Proof.Gen.KernelIdeal.Frame
import proofs.«151981_j22643067584730_1_alg».proof.Proof.Spec
import proofs.«151981_j22643067584730_1_alg».proof.Proof.Shapes
import proofs.«151981_j22643067584730_1_alg».proof.Proof.LibPlainDot
import Idealize.ShloMosaic.Lib.Pipeline.Value
import Idealize.ShloMosaic.Lib.ValueLayout
import Idealize.ShloMosaic.PureOps.Ideal.Laws
import Idealize.ShloMosaic.Lib.Tactic
import proofs.«151981_j22643067584730_1_alg».proof.Proof.Pooled
import Idealize.ShloMosaic.Lib.StableHlo.Run
set_option maxRecDepth 16384

noncomputable section

open Idealize.ShloMosaic Idealize.ShloMosaic.TcCoe Idealize.SL.Sem Idealize.ShloMosaic.ValueIdx
open Idealize.ShloMosaic.Pipeline (Dat)

namespace Cert.KernelIdeal.ReadsB

open Cert.KernelIdeal Cert.KernelIdeal.Gen Cert.Bn

variable (m : (ℓ : Loc nD τ sig) → Buf (Elt Ideal) ℓ) (ρ : Dev nD → PrngReg)

/-! The buffer contents at the later boundaries of @main, read back: a buffer no host operation of a stretch writes
    and no region has for an output array holds what it held before; a region's output array holds what the
    region's write-backs leave; the host's means and variances are quotients of the regions' sums. -/

/-- A buffer that is the result of none of a stretch's operations holds after the stretch what it held before it:
    the goal is reduced to the inequality of the buffer's reference with each operation's result reference. -/
local macro "stretch_keeps" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ### Region 1's entry (`V3`): the first layer's inputs and parameters are as region 0 found them -/
theorem V3_v9 (c : Dev nD) : V3 (F := Ideal) m ρ c main_v9 = V1 (F := Ideal) m ρ c main_v9 :=
  calc W3 m ρ c (Proc.devRef .tc main_v9)
    _ = W2 m ρ c (Proc.devRef .tc main_v9) := by stretch_keeps hostOps1
    _ = W1 m ρ c (Proc.devRef .tc main_v9) := (W2_arr m ρ c 0).trans (((dat0 (V1 m ρ) c).arrAt_in 0 rfl _).trans (A_eq0 (V1 m ρ) c 0))
theorem V3_arg0 (c : Dev nD) : V3 (F := Ideal) m ρ c main_arg0 = V1 (F := Ideal) m ρ c main_arg0 :=
  calc W3 m ρ c (Proc.devRef .tc main_arg0)
    _ = W2 m ρ c (Proc.devRef .tc main_arg0) := by stretch_keeps hostOps1
    _ = W1 m ρ c (Proc.devRef .tc main_arg0) := (W2_arr m ρ c 1).trans (((dat0 (V1 m ρ) c).arrAt_in 1 rfl _).trans (A_eq0 (V1 m ρ) c 1))
theorem V3_v12 (c : Dev nD) : V3 (F := Ideal) m ρ c main_v12 = V1 (F := Ideal) m ρ c main_v12 :=
  calc W3 m ρ c (Proc.devRef .tc main_v12)
    _ = W2 m ρ c (Proc.devRef .tc main_v12) := by stretch_keeps hostOps1
    _ = W1 m ρ c (Proc.devRef .tc main_v12) := (W2_arr m ρ c 2).trans (((dat0 (V1 m ρ) c).arrAt_in 2 rfl _).trans (A_eq0 (V1 m ρ) c 2))
theorem V3_arg3 (c : Dev nD) : V3 (F := Ideal) m ρ c main_arg3 = V1 (F := Ideal) m ρ c main_arg3 :=
  calc W3 m ρ c (Proc.devRef .tc main_arg3)
    _ = W2 m ρ c (Proc.devRef .tc main_arg3) := by stretch_keeps hostOps1
    _ = W1 m ρ c (Proc.devRef .tc main_arg3) := (W2_arr m ρ c 3).trans (((dat0 (V1 m ρ) c).arrAt_in 3 rfl _).trans (A_eq0 (V1 m ρ) c 3))
theorem V3_v13 (c : Dev nD) : V3 (F := Ideal) m ρ c main_v13 = V1 (F := Ideal) m ρ c main_v13 :=
  calc W3 m ρ c (Proc.devRef .tc main_v13)
    _ = W2 m ρ c (Proc.devRef .tc main_v13) := by stretch_keeps hostOps1
    _ = W1 m ρ c (Proc.devRef .tc main_v13) := (W2_arr m ρ c 4).trans (((dat0 (V1 m ρ) c).arrAt_in 4 rfl _).trans (A_eq0 (V1 m ρ) c 4))
theorem V3_v14 (c : Dev nD) : V3 (F := Ideal) m ρ c main_v14 = V1 (F := Ideal) m ρ c main_v14 :=
  calc W3 m ρ c (Proc.devRef .tc main_v14)
    _ = W2 m ρ c (Proc.devRef .tc main_v14) := by stretch_keeps hostOps1
    _ = W1 m ρ c (Proc.devRef .tc main_v14) := W2_of_ne m ρ c main_v14 (by decide)
theorem V3_v15 (c : Dev nD) : V3 (F := Ideal) m ρ c main_v15 = V1 (F := Ideal) m ρ c main_v15 :=
  calc W3 m ρ c (Proc.devRef .tc main_v15)
    _ = W2 m ρ c (Proc.devRef .tc main_v15) := by stretch_keeps hostOps1
    _ = W1 m ρ c (Proc.devRef .tc main_v15) := W2_of_ne m ρ c main_v15 (by decide)

/-! ### The host's mean and variance of a row of column sums, read at a column: the quotient by the row count, and
    the quotient of the sums of squares less the squared mean -/
theorem row_mean (A : FVec Ideal S1x128 .f32) (q : Fin 128) :
    row (Host.divf A (broadcastInDim S1x128 ![] bcast_S_S1x128 (constant S_ .f32 0x47C35000#32))) q
      = Ideal.div (row A q) cN := rfl
theorem row_var (A B : FVec Ideal S1x128 .f32) (q : Fin 128) :
    row (subf (Host.divf B (broadcastInDim S1x128 ![] bcast_S_S1x128 (constant S_ .f32 0x47C35000#32)))
          (mulf (Host.divf A (broadcastInDim S1x128 ![] bcast_S_S1x128 (constant S_ .f32 0x47C35000#32)))
            (Host.divf A (broadcastInDim S1x128 ![] bcast_S_S1x128 (constant S_ .f32 0x47C35000#32))))) q
      = Ideal.div (row B q) cN - Ideal.div (row A q) cN * Ideal.div (row A q) cN := rfl

/-- The first layer's mean: region 0's column sums over the row count. -/
theorem V3_v21 (c : Dev nD) (q : Fin 128) :
    row (V3 (F := Ideal) m ρ c main_v21) q = Ideal.div (row ((dat0 (F := Ideal) (V1 m ρ) c).arrAt 5 cfg0.N) q) cN := by
  show row (StableHlo.after hostOps1 (W2 (F := Ideal) m ρ c) (Proc.devRef .tc main_v21)) q = _
  after_results
  rw [show W2 (F := Ideal) m ρ c (Proc.devRef .tc main_v19_0) = _ from W2_arr m ρ c 5]
  exact row_mean _ q
/-- The first layer's variance: the mean of the squares minus the squared mean. -/
theorem V3_v25 (c : Dev nD) (q : Fin 128) :
    row (V3 (F := Ideal) m ρ c main_v25) q
      = Ideal.div (row ((dat0 (F := Ideal) (V1 m ρ) c).arrAt 6 cfg0.N) q) cN
        - Ideal.div (row ((dat0 (F := Ideal) (V1 m ρ) c).arrAt 5 cfg0.N) q) cN
          * Ideal.div (row ((dat0 (F := Ideal) (V1 m ρ) c).arrAt 5 cfg0.N) q) cN := by
  show row (StableHlo.after hostOps1 (W2 (F := Ideal) m ρ c) (Proc.devRef .tc main_v25)) q = _
  after_results
  rw [show W2 (F := Ideal) m ρ c (Proc.devRef .tc main_v19_0) = _ from W2_arr m ρ c 5,
    show W2 (F := Ideal) m ρ c (Proc.devRef .tc main_v19_1) = _ from W2_arr m ρ c 6]
  exact row_var _ _ q

/-! ### Region 2's entry (`V4`) -/
/-- Region 1's output array. -/
theorem V4_v26 (c : Dev nD) : V4 (F := Ideal) m ρ c main_v26 = (dat1 (F := Ideal) (V3 m ρ) c).arrAt 9 cfg1.N :=
  W4_arr m ρ c 9
theorem V4_arg7 (c : Dev nD) : V4 (F := Ideal) m ρ c main_arg7 = V1 (F := Ideal) m ρ c main_arg7 :=
  calc W4 m ρ c (Proc.devRef .tc main_arg7)
    _ = W3 m ρ c (Proc.devRef .tc main_arg7) := W4_of_ne m ρ c main_arg7 (by decide)
    _ = W2 m ρ c (Proc.devRef .tc main_arg7) := by stretch_keeps hostOps1
    _ = W1 m ρ c (Proc.devRef .tc main_arg7) := W2_of_ne m ρ c main_arg7 (by decide)
theorem V4_v16 (c : Dev nD) : V4 (F := Ideal) m ρ c main_v16 = V1 (F := Ideal) m ρ c main_v16 :=
  calc W4 m ρ c (Proc.devRef .tc main_v16)
    _ = W3 m ρ c (Proc.devRef .tc main_v16) := W4_of_ne m ρ c main_v16 (by decide)
    _ = W2 m ρ c (Proc.devRef .tc main_v16) := by stretch_keeps hostOps1
    _ = W1 m ρ c (Proc.devRef .tc main_v16) := W2_of_ne m ρ c main_v16 (by decide)

/-! ### Region 3's entry (`V6`) -/
theorem V6_v26 (c : Dev nD) : V6 (F := Ideal) m ρ c main_v26 = V4 (F := Ideal) m ρ c main_v26 :=
  calc W6 m ρ c (Proc.devRef .tc main_v26)
    _ = W5 m ρ c (Proc.devRef .tc main_v26) := by stretch_keeps hostOps3
    _ = W4 m ρ c (Proc.devRef .tc main_v26) :=
          (W5_arr m ρ c 0).trans (((dat2 (V4 m ρ) c).arrAt_in 0 rfl _).trans (A_eq2 (V4 m ρ) c 0))
theorem V6_arg7 (c : Dev nD) : V6 (F := Ideal) m ρ c main_arg7 = V1 (F := Ideal) m ρ c main_arg7 :=
  calc W6 m ρ c (Proc.devRef .tc main_arg7)
    _ = W5 m ρ c (Proc.devRef .tc main_arg7) := by stretch_keeps hostOps3
    _ = W4 m ρ c (Proc.devRef .tc main_arg7) :=
          (W5_arr m ρ c 1).trans (((dat2 (V4 m ρ) c).arrAt_in 1 rfl _).trans (A_eq2 (V4 m ρ) c 1))
    _ = W1 m ρ c (Proc.devRef .tc main_arg7) := V4_arg7 m ρ c
theorem V6_v16 (c : Dev nD) : V6 (F := Ideal) m ρ c main_v16 = V1 (F := Ideal) m ρ c main_v16 :=
  calc W6 m ρ c (Proc.devRef .tc main_v16)
    _ = W5 m ρ c (Proc.devRef .tc main_v16) := by stretch_keeps hostOps3
    _ = W4 m ρ c (Proc.devRef .tc main_v16) :=
          (W5_arr m ρ c 2).trans (((dat2 (V4 m ρ) c).arrAt_in 2 rfl _).trans (A_eq2 (V4 m ρ) c 2))
    _ = W1 m ρ c (Proc.devRef .tc main_v16) := V4_v16 m ρ c
theorem V6_v17 (c : Dev nD) : V6 (F := Ideal) m ρ c main_v17 = V1 (F := Ideal) m ρ c main_v17 :=
  calc W6 m ρ c (Proc.devRef .tc main_v17)
    _ = W5 m ρ c (Proc.devRef .tc main_v17) := by stretch_keeps hostOps3
    _ = W4 m ρ c (Proc.devRef .tc main_v17) := W5_of_ne m ρ c main_v17 (by decide)
    _ = W3 m ρ c (Proc.devRef .tc main_v17) := W4_of_ne m ρ c main_v17 (by decide)
    _ = W2 m ρ c (Proc.devRef .tc main_v17) := by stretch_keeps hostOps1
    _ = W1 m ρ c (Proc.devRef .tc main_v17) := W2_of_ne m ρ c main_v17 (by decide)
theorem V6_v18 (c : Dev nD) : V6 (F := Ideal) m ρ c main_v18 = V1 (F := Ideal) m ρ c main_v18 :=
  calc W6 m ρ c (Proc.devRef .tc main_v18)
    _ = W5 m ρ c (Proc.devRef .tc main_v18) := by stretch_keeps hostOps3
    _ = W4 m ρ c (Proc.devRef .tc main_v18) := W5_of_ne m ρ c main_v18 (by decide)
    _ = W3 m ρ c (Proc.devRef .tc main_v18) := W4_of_ne m ρ c main_v18 (by decide)
    _ = W2 m ρ c (Proc.devRef .tc main_v18) := by stretch_keeps hostOps1
    _ = W1 m ρ c (Proc.devRef .tc main_v18) := W2_of_ne m ρ c main_v18 (by decide)

/-- The second layer's mean: region 2's column sums over the row count. -/
theorem V6_v29 (c : Dev nD) (q : Fin 128) :
    row (V6 (F := Ideal) m ρ c main_v29) q = Ideal.div (row ((dat2 (F := Ideal) (V4 m ρ) c).arrAt 3 cfg2.N) q) cN := by
  show row (StableHlo.after hostOps3 (W5 (F := Ideal) m ρ c) (Proc.devRef .tc main_v29)) q = _
  after_results
  rw [show W5 (F := Ideal) m ρ c (Proc.devRef .tc main_v27_0) = _ from W5_arr m ρ c 3]
  exact row_mean _ q
/-- The second layer's variance. -/
theorem V6_v33 (c : Dev nD) (q : Fin 128) :
    row (V6 (F := Ideal) m ρ c main_v33) q
      = Ideal.div (row ((dat2 (F := Ideal) (V4 m ρ) c).arrAt 4 cfg2.N) q) cN
        - Ideal.div (row ((dat2 (F := Ideal) (V4 m ρ) c).arrAt 3 cfg2.N) q) cN
          * Ideal.div (row ((dat2 (F := Ideal) (V4 m ρ) c).arrAt 3 cfg2.N) q) cN := by
  show row (StableHlo.after hostOps3 (W5 (F := Ideal) m ρ c) (Proc.devRef .tc main_v33)) q = _
  after_results
  rw [show W5 (F := Ideal) m ρ c (Proc.devRef .tc main_v27_0) = _ from W5_arr m ρ c 3,
    show W5 (F := Ideal) m ρ c (Proc.devRef .tc main_v27_1) = _ from W5_arr m ρ c 4]
  exact row_var _ _ q

/-! ### The last boundary -/
/-- The result buffer is region 3's output array. -/
theorem W7_v34 (c : Dev nD) :
    W7 (F := Ideal) m ρ c (Proc.devRef .tc main_v34) = (dat3 (F := Ideal) (V6 m ρ) c).arrAt 7 cfg3.N :=
  W7_arr m ρ c 7

end Cert.KernelIdeal.ReadsB

end
-- ==== Proof.KFold.lean ====
import proofs.«151981_j22643067584730_1_alg».proof.Proof.Gen.KernelIdeal.Frame
import proofs.«151981_j22643067584730_1_alg».proof.Proof.Spec
import proofs.«151981_j22643067584730_1_alg».proof.Proof.Shapes
import proofs.«151981_j22643067584730_1_alg».proof.Proof.LibPlainDot
import Idealize.ShloMosaic.Lib.Pipeline.Value
import Idealize.ShloMosaic.Lib.ValueLayout
import Idealize.ShloMosaic.PureOps.Ideal.Laws
import Idealize.ShloMosaic.Lib.Tactic
import proofs.«151981_j22643067584730_1_alg».proof.Proof.K0
import proofs.«151981_j22643067584730_1_alg».proof.Proof.K1
import proofs.«151981_j22643067584730_1_alg».proof.Proof.K2
import proofs.«151981_j22643067584730_1_alg».proof.Proof.K3
import proofs.«151981_j22643067584730_1_alg».proof.Proof.Pooled
import proofs.«151981_j22643067584730_1_alg».proof.Proof.KReadsA
import proofs.«151981_j22643067584730_1_alg».proof.Proof.KReadsB
set_option maxRecDepth 16384

noncomputable section

open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.Bn

variable (m : (ℓ : Loc nD τ sig) → Buf (Elt Ideal) ℓ) (ρ : Dev nD → PrngReg)

open Cert.KernelIdeal.ReadsA Cert.KernelIdeal.ReadsB

/-! The boundaries of @main composed. Region 0 sums y₁ = X₁ W₁ + b₁ and its square over the rows; the host divides
    by the row count: the first layer's mean and its variance as mean of squares minus squared mean; region 1
    normalises y₁ with them; regions 2 and 3 and the host between them do the same to region 1's output. -/

/-- The matrix the first layer multiplies, in terms of the launch memory. -/
abbrev X1 (c : Dev nD) : Fin 100000 → Fin 128 → EReal :=
  xin (Cert.Pooled.pooled (m ((c.tc : Thread nD τ).loc main_arg0)) (m ((c.tc : Thread nD τ).loc main_arg1)) (m ((c.tc : Thread nD τ).loc main_arg2))) (m ((c.tc : Thread nD τ).loc main_arg0))
    (fun _ => cOne + scal (m ((c.tc : Thread nD τ).loc main_arg11)))

/-- The first layer's pre-normalisation output, as region 0 and region 1 both compute it from what they find. -/
theorem y1_eq (c : Dev nD) :
    lin (xin (V1 (F := Ideal) m ρ c main_v9) (V1 (F := Ideal) m ρ c main_arg0) (row (V1 (F := Ideal) m ρ c main_v12)))
        (mat (V1 (F := Ideal) m ρ c main_arg3)) (row (V1 (F := Ideal) m ρ c main_v13))
      = lin (X1 m c) (mat (m ((c.tc : Thread nD τ).loc main_arg3))) (vec (m ((c.tc : Thread nD τ).loc main_arg4))) := by
  rw [V1_v9, V1_arg0, V1_arg3,
    show row (V1 (F := Ideal) m ρ c main_v12) = (fun _ => cOne + scal (m ((c.tc : Thread nD τ).loc main_arg11))) from funext (V1_v12 m ρ c),
    show row (V1 (F := Ideal) m ρ c main_v13) = vec (m ((c.tc : Thread nD τ).loc main_arg4)) from funext (V1_v13 m ρ c)]

/-- The mean the host hands region 1 is the first layer's column mean. -/
theorem mean1_eq (c : Dev nD) (q : Fin 128) :
    row (V3 (F := Ideal) m ρ c main_v21) q = mean (lin (X1 m c) (mat (m ((c.tc : Thread nD τ).loc main_arg3))) (vec (m ((c.tc : Thread nD τ).loc main_arg4)))) q := by
  rw [V3_v21, K0.sum_apply, y1_eq]
  rfl

/-- The variance the host hands region 1 is the first layer's, as mean of squares minus squared mean. -/
theorem var1_eq (c : Dev nD) (q : Fin 128) :
    row (V3 (F := Ideal) m ρ c main_v25) q = varK (lin (X1 m c) (mat (m ((c.tc : Thread nD τ).loc main_arg3))) (vec (m ((c.tc : Thread nD τ).loc main_arg4)))) q := by
  rw [V3_v25, K0.sum_apply, K0.sumsq_apply, y1_eq]
  rfl

/-- Region 1's output is the first layer. -/
theorem x1_eq (c : Dev nD) :
    mat (V4 (F := Ideal) m ρ c main_v26)
      = layerK (X1 m c) (mat (m ((c.tc : Thread nD τ).loc main_arg3))) (vec (m ((c.tc : Thread nD τ).loc main_arg4))) (vec (m ((c.tc : Thread nD τ).loc main_arg5))) (vec (m ((c.tc : Thread nD τ).loc main_arg6))) := by
  funext p k
  rw [V4_v26, K1.out_apply, V3_v9, V3_arg0, V3_v12, V3_arg3, V3_v13, V3_v14, V3_v15, y1_eq, mean1_eq, var1_eq,
    V1_v14, V1_v15]
  rfl

/-- The second layer's pre-normalisation output, as regions 2 and 3 compute it. -/
theorem y2_eq (c : Dev nD) :
    lin (mat (V4 (F := Ideal) m ρ c main_v26)) (mat (V4 (F := Ideal) m ρ c main_arg7)) (row (V4 (F := Ideal) m ρ c main_v16))
      = lin (layerK (X1 m c) (mat (m ((c.tc : Thread nD τ).loc main_arg3))) (vec (m ((c.tc : Thread nD τ).loc main_arg4))) (vec (m ((c.tc : Thread nD τ).loc main_arg5))) (vec (m ((c.tc : Thread nD τ).loc main_arg6))))
          (mat (m ((c.tc : Thread nD τ).loc main_arg7))) (vec (m ((c.tc : Thread nD τ).loc main_arg8))) := by
  rw [x1_eq, V4_arg7, V4_v16, V1_arg7,
    show row (V1 (F := Ideal) m ρ c main_v16) = vec (m ((c.tc : Thread nD τ).loc main_arg8)) from funext (V1_v16 m ρ c)]

theorem result_apply (c : Dev nD) (p : Fin 100000) (q : Fin 128) :
    mat (W7 (F := Ideal) m ρ c (Proc.devRef .tc main_v34)) p q
      = layerK
          (layerK (xin (Cert.Pooled.pooled (m ((c.tc : Thread nD τ).loc main_arg0)) (m ((c.tc : Thread nD τ).loc main_arg1)) (m ((c.tc : Thread nD τ).loc main_arg2))) (m ((c.tc : Thread nD τ).loc main_arg0))
                    (fun _ => cOne + scal (m ((c.tc : Thread nD τ).loc main_arg11))))
            (mat (m ((c.tc : Thread nD τ).loc main_arg3))) (vec (m ((c.tc : Thread nD τ).loc main_arg4))) (vec (m ((c.tc : Thread nD τ).loc main_arg5))) (vec (m ((c.tc : Thread nD τ).loc main_arg6))))
          (mat (m ((c.tc : Thread nD τ).loc main_arg7))) (vec (m ((c.tc : Thread nD τ).loc main_arg8))) (vec (m ((c.tc : Thread nD τ).loc main_arg9))) (vec (m ((c.tc : Thread nD τ).loc main_arg10))) p q := by
  rw [W7_v34, K3.out_apply, V6_v29, V6_v33, K2.sum_apply, K2.sumsq_apply, V6_v26, V6_arg7, V6_v16, V6_v17, V6_v18,
    ← V4_arg7, ← V4_v16, y2_eq, V1_v17, V1_v18]
  rfl

end Cert.KernelIdeal.Fold

end
-- ==== Proof.RefValue.lean ====
import proofs.«151981_j22643067584730_1_alg».proof.Defs
import proofs.«151981_j22643067584730_1_alg».proof.Proof.Gen.ReferenceIdeal.Read
import proofs.«151981_j22643067584730_1_alg».proof.Proof.Spec
import proofs.«151981_j22643067584730_1_alg».proof.Proof.Shapes
import proofs.«151981_j22643067584730_1_alg».proof.Proof.Pooled
import Idealize.ShloMosaic.Lib.Pipeline.Value
import Idealize.ShloMosaic.Lib.ValueLayout
import Idealize.ShloMosaic.PureOps.Ideal.Laws

noncomputable section

namespace Cert.ReferenceIdeal.RefValue

open Idealize.ShloMosaic Idealize.ShloMosaic.ValueIdx Cert.ReferenceIdeal Cert.ReferenceIdeal.Read Cert.Bn

variable (x0 : (⟨Cert.ReferenceIdeal.S100000x128, .f32⟩ : BufTy).Contents (Elt Ideal)) (x1 x2 : (⟨Cert.ReferenceIdeal.S1600000, .i32⟩ : BufTy).Contents (Elt Ideal))
    (x3 : (⟨Cert.ReferenceIdeal.S128x128, .f32⟩ : BufTy).Contents (Elt Ideal)) (x4 x5 x6 : (⟨Cert.ReferenceIdeal.S128, .f32⟩ : BufTy).Contents (Elt Ideal))
    (x7 : (⟨Cert.ReferenceIdeal.S128x128, .f32⟩ : BufTy).Contents (Elt Ideal)) (x8 x9 x10 : (⟨Cert.ReferenceIdeal.S128, .f32⟩ : BufTy).Contents (Elt Ideal))
    (x11 : (⟨Cert.ReferenceIdeal.S_, .f32⟩ : BufTy).Contents (Elt Ideal))

/-! ## Where each operation reads: the composed index functions at a row and a column -/

/-- Two index functions into a two-axis array agree when they agree on each axis. -/
local macro "axes2" : tactic => `(tactic| exact funext fun a => Fin.ext (by match a with | ⟨0, _⟩ => rfl | ⟨1, _⟩ => rfl))
/-- The same for a one-axis array. -/
local macro "axes1" : tactic => `(tactic| exact funext fun a => Fin.ext (by match a with | ⟨0, _⟩ => rfl))

theorem lidx14 (p : Fin 100000) (q k : Fin 128) : lidx_main_v14 (ix2 p q) k = ix2 p k := by axes2
theorem ridx14 (p : Fin 100000) (q k : Fin 128) : ridx_main_v14 (ix2 p q) k = ix2 k q := by axes2
theorem col16 (p : Fin 100000) (q : Fin 128) : idx_main_v15 (idx_main_v16 (ix2 p q)) = ix1 q := by axes1
theorem idx18 (q : Fin 128) (k : Fin 100000) : idx_main_v18 (ix1 q) k = ix2 k q := by axes2
theorem col22 (p : Fin 100000) (q : Fin 128) : idx_main_v21 (idx_main_v22 (ix2 p q)) = ix1 q := by axes1
theorem idx25 (q : Fin 128) (k : Fin 100000) : idx_main_v25 (ix1 q) k = ix2 k q := by axes2
theorem col29 (p : Fin 100000) (q : Fin 128) : idx_main_v28 (idx_main_v29 (ix2 p q)) = ix1 q := by axes1
theorem col35 (p : Fin 100000) (q : Fin 128) : idx_main_v34 (idx_main_v35 (ix2 p q)) = ix1 q := by axes1
theorem col38 (p : Fin 100000) (q : Fin 128) : idx_main_v37 (idx_main_v38 (ix2 p q)) = ix1 q := by axes1
theorem col41 (p : Fin 100000) (q : Fin 128) : idx_main_v40 (idx_main_v41 (ix2 p q)) = ix1 q := by axes1

theorem lidx44 (p : Fin 100000) (q k : Fin 128) : lidx_main_v44 (ix2 p q) k = ix2 p k := by axes2
theorem ridx44 (p : Fin 100000) (q k : Fin 128) : ridx_main_v44 (ix2 p q) k = ix2 k q := by axes2
theorem col46 (p : Fin 100000) (q : Fin 128) : idx_main_v45 (idx_main_v46 (ix2 p q)) = ix1 q := by axes1
theorem idx48 (q : Fin 128) (k : Fin 100000) : idx_main_v48 (ix1 q) k = ix2 k q := by axes2
theorem col52 (p : Fin 100000) (q : Fin 128) : idx_main_v51 (idx_main_v52 (ix2 p q)) = ix1 q := by axes1
theorem idx55 (q : Fin 128) (k : Fin 100000) : idx_main_v55 (ix1 q) k = ix2 k q := by axes2
theorem col59 (p : Fin 100000) (q : Fin 128) : idx_main_v58 (idx_main_v59 (ix2 p q)) = ix1 q := by axes1
theorem col65 (p : Fin 100000) (q : Fin 128) : idx_main_v64 (idx_main_v65 (ix2 p q)) = ix1 q := by axes1
theorem col68 (p : Fin 100000) (q : Fin 128) : idx_main_v67 (idx_main_v68 (ix2 p q)) = ix1 q := by axes1
theorem col71 (p : Fin 100000) (q : Fin 128) : idx_main_v70 (idx_main_v71 (ix2 p q)) = ix1 q := by axes1

/-! ## The matrix the first layer multiplies -/

/-- The scatter-add of the gathered rows is the pooled features: the same operations over the same records. -/
theorem v9_pooled : val_main_v9 (F := Ideal) x0 x1 x2 = Cert.Pooled.pooled x0 x1 x2 := by
  unfold val_main_v9 val_main_v8 val_main_v7 val_main_cst val_main_v6 val_main_v5 val_main_v4 val_main_v3 val_main_v2
    val_main_c_0 val_main_v1 val_main_v0 val_main_c Cert.Pooled.pooled
  rfl

/-- The pooled features plus (one + eps) times the node's own, at a row and a column. -/
theorem v13_xin (p : Fin 100000) (k : Fin 128) :
    mat (val_main_v13 (F := Ideal) x0 x1 x2 x11) p k
      = xin (Cert.Pooled.pooled x0 x1 x2) x0 (fun _ => cOne + scal x11) p k := by
  unfold xin
  unfold mat scal cOne
  rw [val_main_v13_apply, val_main_v12_apply, val_main_v11_apply, val_main_v10_apply, val_main_cst_1_apply, v9_pooled]
  simp only [Ideal.addf_def, Ideal.mulf_def, Ideal.ofBits_def]

/-! ## Layer 1, stage by stage, over the matrix it is given -/

/-- The matrix product plus the bias, at a row and a column. -/
theorem v17_lin (p : Fin 100000) (q : Fin 128) :
    mat (val_main_v17 (F := Ideal) x0 x1 x2 x3 x4 x11) p q = lin (mat (val_main_v13 (F := Ideal) x0 x1 x2 x11)) (mat x3) (vec x4) p q := by
  unfold lin
  unfold mat vec
  rw [val_main_v17_apply, val_main_v14_apply, val_main_v16_apply, val_main_v15_apply, col16, Ideal.addf_def]
  refine congrArg (· + x4 (ix1 q)) ?_
  exact Finset.sum_congr rfl fun k _ => by rw [lidx14, ridx14]

/-- The column sum from the zero literal, divided by the row count: the column mean. -/
theorem v20_mean (q : Fin 128) :
    vec (val_main_v20 (F := Ideal) x0 x1 x2 x3 x4 x11) q = mean (mat (val_main_v17 (F := Ideal) x0 x1 x2 x3 x4 x11)) q := by
  unfold mean s1
  unfold mat vec cZ cN
  rw [val_main_v20_apply, val_main_v18_apply, val_main_v19_apply, val_main_cst_3_apply, val_main_cst_2_apply,
    Ideal.hostDivf_def]
  refine congrArg (fun s => Ideal.div (Ideal.ofBits .f32 0x00000000#32 + s) (Ideal.ofBits .f32 0x47C35000#32)) ?_
  exact Finset.sum_congr rfl fun k _ => by rw [idx18]

/-- One squared deviation from the column mean, at the row the sum visits. -/
theorem v24_at (k : Fin 100000) (q : Fin 128) :
    val_main_v24 (F := Ideal) x0 x1 x2 x3 x4 x11 (idx_main_v25 (ix1 q) k)
      = (val_main_v17 (F := Ideal) x0 x1 x2 x3 x4 x11 (ix2 k q) - val_main_v20 (F := Ideal) x0 x1 x2 x3 x4 x11 (ix1 q))
          * (val_main_v17 (F := Ideal) x0 x1 x2 x3 x4 x11 (ix2 k q) - val_main_v20 (F := Ideal) x0 x1 x2 x3 x4 x11 (ix1 q)) := by
  rw [idx25, val_main_v24_apply, val_main_v23_apply, val_main_v22_apply, val_main_v21_apply, col22,
    Ideal.mulf_def, Ideal.subf_def]

/-- The column sum of the squared deviations from the mean, divided by the row count: the variance. -/
theorem v27_var (q : Fin 128) :
    vec (val_main_v27 (F := Ideal) x0 x1 x2 x3 x4 x11) q = varR (mat (val_main_v17 (F := Ideal) x0 x1 x2 x3 x4 x11)) q := by
  unfold varR
  rw [← v20_mean x0 x1 x2 x3 x4 x11 q]
  unfold mat vec cZ cN
  rw [val_main_v27_apply, val_main_v25_apply, val_main_v26_apply, val_main_cst_5_apply, val_main_cst_4_apply,
    Ideal.hostDivf_def]
  refine congrArg (fun s => Ideal.div (Ideal.ofBits .f32 0x00000000#32 + s) (Ideal.ofBits .f32 0x47C35000#32)) ?_
  exact Finset.sum_congr rfl fun k _ => v24_at x0 x1 x2 x3 x4 x11 k q

/-- Normalise by the mean and the variance, scale, shift, clamp at zero. -/
theorem v43_bn (p : Fin 100000) (q : Fin 128) :
    mat (val_main_v43 (F := Ideal) x0 x1 x2 x3 x4 x5 x6 x11) p q
      = bn (mat (val_main_v17 (F := Ideal) x0 x1 x2 x3 x4 x11) p q) (vec (val_main_v20 (F := Ideal) x0 x1 x2 x3 x4 x11) q) (vec (val_main_v27 (F := Ideal) x0 x1 x2 x3 x4 x11) q) (vec x5 q) (vec x6 q) := by
  unfold bn
  unfold mat vec cZ cE
  rw [val_main_v43_apply, val_main_v42_apply, val_main_v39_apply, val_main_v36_apply, val_main_v30_apply,
    val_main_v29_apply, val_main_v28_apply, col29, val_main_v35_apply, val_main_v34_apply, col35, val_main_v33_apply,
    val_main_v32_apply, val_main_v31_apply, val_main_cst_6_apply, val_main_v38_apply, val_main_v37_apply, col38,
    val_main_v41_apply, val_main_v40_apply, col41, val_main_call0_v0_apply, val_main_call0_cst_apply]
  rfl

/-- Layer 1 of the reference is the layer of the specification, its variance the mean of squared deviations. -/
theorem layer1 (p : Fin 100000) (q : Fin 128) :
    mat (val_main_v43 (F := Ideal) x0 x1 x2 x3 x4 x5 x6 x11) p q = layerR (mat (val_main_v13 (F := Ideal) x0 x1 x2 x11)) (mat x3) (vec x4) (vec x5) (vec x6) p q := by
  have hY : mat (val_main_v17 (F := Ideal) x0 x1 x2 x3 x4 x11) = lin (mat (val_main_v13 (F := Ideal) x0 x1 x2 x11)) (mat x3) (vec x4) :=
    funext fun p => funext fun q => v17_lin x0 x1 x2 x3 x4 x11 p q
  rw [v43_bn, v27_var, v20_mean, hY]
  rfl

/-! ## Layer 2, stage by stage, over the matrix it is given -/

/-- The matrix product plus the bias, at a row and a column. -/
theorem v47_lin (p : Fin 100000) (q : Fin 128) :
    mat (val_main_v47 (F := Ideal) x0 x1 x2 x3 x4 x5 x6 x7 x8 x11) p q = lin (mat (val_main_v43 (F := Ideal) x0 x1 x2 x3 x4 x5 x6 x11)) (mat x7) (vec x8) p q := by
  unfold lin
  unfold mat vec
  rw [val_main_v47_apply, val_main_v44_apply, val_main_v46_apply, val_main_v45_apply, col46, Ideal.addf_def]
  refine congrArg (· + x8 (ix1 q)) ?_
  exact Finset.sum_congr rfl fun k _ => by rw [lidx44, ridx44]

/-- The column sum from the zero literal, divided by the row count: the column mean. -/
theorem v50_mean (q : Fin 128) :
    vec (val_main_v50 (F := Ideal) x0 x1 x2 x3 x4 x5 x6 x7 x8 x11) q = mean (mat (val_main_v47 (F := Ideal) x0 x1 x2 x3 x4 x5 x6 x7 x8 x11)) q := by
  unfold mean s1
  unfold mat vec cZ cN
  rw [val_main_v50_apply, val_main_v48_apply, val_main_v49_apply, val_main_cst_8_apply, val_main_cst_7_apply,
    Ideal.hostDivf_def]
  refine congrArg (fun s => Ideal.div (Ideal.ofBits .f32 0x00000000#32 + s) (Ideal.ofBits .f32 0x47C35000#32)) ?_
  exact Finset.sum_congr rfl fun k _ => by rw [idx48]

/-- One squared deviation from the column mean, at the row the sum visits. -/
theorem v54_at (k : Fin 100000) (q : Fin 128) :
    val_main_v54 (F := Ideal) x0 x1 x2 x3 x4 x5 x6 x7 x8 x11 (idx_main_v55 (ix1 q) k)
      = (val_main_v47 (F := Ideal) x0 x1 x2 x3 x4 x5 x6 x7 x8 x11 (ix2 k q) - val_main_v50 (F := Ideal) x0 x1 x2 x3 x4 x5 x6 x7 x8 x11 (ix1 q))
          * (val_main_v47 (F := Ideal) x0 x1 x2 x3 x4 x5 x6 x7 x8 x11 (ix2 k q) - val_main_v50 (F := Ideal) x0 x1 x2 x3 x4 x5 x6 x7 x8 x11 (ix1 q)) := by
  rw [idx55, val_main_v54_apply, val_main_v53_apply, val_main_v52_apply, val_main_v51_apply, col52,
    Ideal.mulf_def, Ideal.subf_def]

/-- The column sum of the squared deviations from the mean, divided by the row count: the variance. -/
theorem v57_var (q : Fin 128) :
    vec (val_main_v57 (F := Ideal) x0 x1 x2 x3 x4 x5 x6 x7 x8 x11) q = varR (mat (val_main_v47 (F := Ideal) x0 x1 x2 x3 x4 x5 x6 x7 x8 x11)) q := by
  unfold varR
  rw [← v50_mean x0 x1 x2 x3 x4 x5 x6 x7 x8 x11 q]
  unfold mat vec cZ cN
  rw [val_main_v57_apply, val_main_v55_apply, val_main_v56_apply, val_main_cst_10_apply, val_main_cst_9_apply,
    Ideal.hostDivf_def]
  refine congrArg (fun s => Ideal.div (Ideal.ofBits .f32 0x00000000#32 + s) (Ideal.ofBits .f32 0x47C35000#32)) ?_
  exact Finset.sum_congr rfl fun k _ => v54_at x0 x1 x2 x3 x4 x5 x6 x7 x8 x11 k q

/-- Normalise by the mean and the variance, scale, shift, clamp at zero. -/
theorem v73_bn (p : Fin 100000) (q : Fin 128) :
    mat (val_main_v73 (F := Ideal) x0 x1 x2 x3 x4 x5 x6 x7 x8 x9 x10 x11) p q
      = bn (mat (val_main_v47 (F := Ideal) x0 x1 x2 x3 x4 x5 x6 x7 x8 x11) p q) (vec (val_main_v50 (F := Ideal) x0 x1 x2 x3 x4 x5 x6 x7 x8 x11) q) (vec (val_main_v57 (F := Ideal) x0 x1 x2 x3 x4 x5 x6 x7 x8 x11) q) (vec x9 q) (vec x10 q) := by
  unfold bn
  unfold mat vec cZ cE
  rw [val_main_v73_apply, val_main_v72_apply, val_main_v69_apply, val_main_v66_apply, val_main_v60_apply,
    val_main_v59_apply, val_main_v58_apply, col59, val_main_v65_apply, val_main_v64_apply, col65, val_main_v63_apply,
    val_main_v62_apply, val_main_v61_apply, val_main_cst_11_apply, val_main_v68_apply, val_main_v67_apply, col68,
    val_main_v71_apply, val_main_v70_apply, col71, val_main_call1_v0_apply, val_main_call1_cst_apply]
  rfl

/-- Layer 2 of the reference is the layer of the specification, its variance the mean of squared deviations. -/
theorem layer2 (p : Fin 100000) (q : Fin 128) :
    mat (val_main_v73 (F := Ideal) x0 x1 x2 x3 x4 x5 x6 x7 x8 x9 x10 x11) p q = layerR (mat (val_main_v43 (F := Ideal) x0 x1 x2 x3 x4 x5 x6 x11)) (mat x7) (vec x8) (vec x9) (vec x10) p q := by
  have hY : mat (val_main_v47 (F := Ideal) x0 x1 x2 x3 x4 x5 x6 x7 x8 x11) = lin (mat (val_main_v43 (F := Ideal) x0 x1 x2 x3 x4 x5 x6 x11)) (mat x7) (vec x8) :=
    funext fun p => funext fun q => v47_lin x0 x1 x2 x3 x4 x5 x6 x7 x8 x11 p q
  rw [v73_bn, v57_var, v50_mean, hY]
  rfl

/-! ## The two layers together -/

/-- The reference's result, at row p and column q: two layers, each with its variance spelt as mean of squared
    deviations, of the pooled features plus (one + eps) times h. -/
theorem ref_apply (x0 : (⟨Cert.ReferenceIdeal.S100000x128, .f32⟩ : BufTy).Contents (Elt Ideal)) (x1 x2 : (⟨Cert.ReferenceIdeal.S1600000, .i32⟩ : BufTy).Contents (Elt Ideal))
    (x3 : (⟨Cert.ReferenceIdeal.S128x128, .f32⟩ : BufTy).Contents (Elt Ideal)) (x4 x5 x6 : (⟨Cert.ReferenceIdeal.S128, .f32⟩ : BufTy).Contents (Elt Ideal))
    (x7 : (⟨Cert.ReferenceIdeal.S128x128, .f32⟩ : BufTy).Contents (Elt Ideal)) (x8 x9 x10 : (⟨Cert.ReferenceIdeal.S128, .f32⟩ : BufTy).Contents (Elt Ideal))
    (x11 : (⟨Cert.ReferenceIdeal.S_, .f32⟩ : BufTy).Contents (Elt Ideal)) (p : Fin 100000) (q : Fin 128) :
    mat (val_main_v73 (F := Ideal) x0 x1 x2 x3 x4 x5 x6 x7 x8 x9 x10 x11) p q
      = layerR (layerR (xin (Cert.Pooled.pooled x0 x1 x2) x0 (fun _ => cOne + scal x11)) (mat x3) (vec x4) (vec x5) (vec x6))
          (mat x7) (vec x8) (vec x9) (vec x10) p q := by
  have h13 : mat (val_main_v13 (F := Ideal) x0 x1 x2 x11) = xin (Cert.Pooled.pooled x0 x1 x2) x0 (fun _ => cOne + scal x11) :=
    funext fun p => funext fun k => v13_xin x0 x1 x2 x11 p k
  have h43 : mat (val_main_v43 (F := Ideal) x0 x1 x2 x3 x4 x5 x6 x11)
      = layerR (xin (Cert.Pooled.pooled x0 x1 x2) x0 (fun _ => cOne + scal x11)) (mat x3) (vec x4) (vec x5) (vec x6) :=
    funext fun p => funext fun q => by rw [layer1, h13]
  rw [layer2, h43]

end Cert.ReferenceIdeal.RefValue

end
-- ==== Proof.lean ====
/-
  The two programs compute one function of their arguments, over the extended reals, wherever the float arguments
  are real numbers.

  Both gather each edge's source row of h and add it into the edge's destination row (the same host operations),
  add (1 + eps) h, and apply two layers of  relu (batch-norm (x W + b)).  The reference takes a column's variance as
  the mean of the squared deviations from the column mean; the kernel program accumulates, block of 5000 rows by
  block, the column sums of y and of y², and takes the variance as the mean of the squares minus the squared mean.
  The two agree on real entries (Proof/Spec.lean), and the entries are real: the arguments are by the precondition
  (Proof/PreFin.lean), the pooled features are finite sums of entries of h (Proof/Pooled.lean), and a layer of real
  inputs has real outputs, its variance being a nonnegative real and eps a positive one.

  The kernel program's result is read off its run region by region (Proof/K0.lean … K3.lean: what each region's
  output arrays hold, at any entry contents; Proof/KFold.lean: the boundaries of @main composed), the reference's
  off its run one operation at a time (Proof/RefValue.lean). The ideal pass rewrote nothing, so the idealized
  kernel program is the kernel program's own text.
-/
import proofs.«151981_j22643067584730_1_alg».proof.Defs
import proofs.«151981_j22643067584730_1_alg».proof.Proof.Gen.Kernel
import proofs.«151981_j22643067584730_1_alg».proof.Proof.Gen.Kernel.Frame
import proofs.«151981_j22643067584730_1_alg».proof.Proof.Gen.KernelIdeal
import proofs.«151981_j22643067584730_1_alg».proof.Proof.Gen.KernelIdeal.Frame
import proofs.«151981_j22643067584730_1_alg».proof.Proof.Gen.ReferenceIdeal
import proofs.«151981_j22643067584730_1_alg».proof.Proof.Gen.ReferenceIdeal.Run
import proofs.«151981_j22643067584730_1_alg».proof.Proof.Gen.ReferenceIdeal.Read
import proofs.«151981_j22643067584730_1_alg».proof.Proof.Gen.Pre_finite_inputs
import proofs.«151981_j22643067584730_1_alg».proof.Proof.Spec
import proofs.«151981_j22643067584730_1_alg».proof.Proof.Shapes
import proofs.«151981_j22643067584730_1_alg».proof.Proof.Pooled
import proofs.«151981_j22643067584730_1_alg».proof.Proof.PreFin
import proofs.«151981_j22643067584730_1_alg».proof.Proof.KRun
import proofs.«151981_j22643067584730_1_alg».proof.Proof.KFold
import proofs.«151981_j22643067584730_1_alg».proof.Proof.RefValue
import Idealize.ShloMosaic.Adequacy
import Idealize.ShloMosaic.Init

noncomputable section

namespace Cert.Proof

open Idealize.ShloMosaic Idealize.ShloMosaic.TcCoe Idealize.SL.Sem Cert.Bn

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Two layers under either spelling of the variance are one function of real inputs: the inner layer's two
    spellings agree because its input matrix is real, and the outer layer's because the inner layer's output is. -/
theorem layers_eq {X : Fin 100000 → Fin 128 → EReal} {W1 W2 : Fin 128 → Fin 128 → EReal} {b1 g1 be1 b2 : Fin 128 → EReal}
    (g2 be2 : Fin 128 → EReal)
    (hX : ∀ p k, IsFin (X p k)) (hW1 : ∀ k q, IsFin (W1 k q)) (hb1 : ∀ q, IsFin (b1 q)) (hg1 : ∀ q, IsFin (g1 q))
    (hbe1 : ∀ q, IsFin (be1 q)) (hW2 : ∀ k q, IsFin (W2 k q)) (hb2 : ∀ q, IsFin (b2 q)) :
    layerK (layerK X W1 b1 g1 be1) W2 b2 g2 be2 = layerR (layerR X W1 b1 g1 be1) W2 b2 g2 be2 := by
  rw [layerK_eq_layerR g1 be1 hX hW1 hb1]
  exact layerK_eq_layerR g2 be2 (layerR_fin hX hW1 hb1 hg1 hbe1) hW2 hb2

/-- From memories agreeing on the arguments both programs run, the arguments unchanged, and end with the same
    result array: at every row and column the kernel program's is two layers with the variance as mean of squares
    minus squared mean, the reference's two layers with the variance as mean of squared deviations, of the same real
    inputs. -/
theorem algebraic : Cert.algebraic_KernelIdeal_ReferenceIdeal := by
  intro m ρ m' ρ' hpre hagree
  refine ⟨fun c => Cert.KernelIdeal.Gen.W7 (F := Ideal) m ρ c (Proc.devRef .tc Cert.KernelIdeal.main_v34),
    Cert.KernelIdeal.Launch.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v73_eq, a0, a1, a2, a3, a4, a5, a6, a7, a8, a9, a10, a11]
  obtain ⟨f0, f3, f4, f5, f6, f7, f8, f9, f10, f11⟩ := Cert.PreFin.of_fn _ _ _ _ _ _ _ _ _ _ _ _ (hpre c)
  refine ext_mat fun p q => ?_
  rw [Cert.ReferenceIdeal.RefValue.ref_apply, Cert.KernelIdeal.Fold.result_apply]
  refine (congrFun (congrFun (layers_eq _ _ ?_ (fun k q => f3 _) (fun q => f4 _) (fun q => f5 _) (fun q => f6 _)
    (fun k q => f7 _) (fun q => f8 _)) p) q).symm
  intro p k
  exact isFin_add (Cert.Pooled.pooled_fin _ _ _ f0 _) (isFin_mul (isFin_add cOne_fin (f11 _)) (f0 _))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
